-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel

variable [Facts]

def fn {F : FTy → Type} [FloatOps F] (main_arg0 : IVec S8192 32) (main_arg1 : IVec S8192 32) (main_arg2 : IVec S8192 32) (main_arg3 : IVec S8192 32) (main_arg4 : FVec F S1000000x64 .f32) (main_arg5 : FVec F S1000000x64 .f32) : IVec S_ 1 :=
  let main_v0 : FVec F S1000000x64 .f32 := Host.absf main_arg4
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg5
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  main_v8
-- ==== Kernel.lean ====
abbrev S8192 : Shape := ⟨1, ![8192]⟩
abbrev S1000000x64 : Shape := ⟨2, ![1000000, 64]⟩
abbrev S_ : Shape := ⟨0, ![]⟩
abbrev S1000000x1x64 : Shape := ⟨3, ![1000000, 1, 64]⟩
abbrev S8192x1x64 : Shape := ⟨3, ![8192, 1, 64]⟩
abbrev S1x1x64 : Shape := ⟨3, ![1, 1, 64]⟩
abbrev S1 : Shape := ⟨1, ![1]⟩
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S64x1024 : Shape := ⟨2, ![64, 1024]⟩

abbrev nBuf : Space → Nat
  | .hbm => 51
  | .vmem => 14
  | .smem => 2
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S1000000x64, .f32⟩
  | .hbm, ⟨5, _⟩ => ⟨S1000000x64, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S1000000x1x64, .f32⟩
  | .hbm, ⟨45, _⟩ => ⟨S8192x1x64, .bf16⟩
  | .hbm, ⟨46, _⟩ => ⟨S8192x64, .bf16⟩
  | .hbm, ⟨47, _⟩ => ⟨S1000000x1x64, .f32⟩
  | .hbm, ⟨48, _⟩ => ⟨S8192x1x64, .bf16⟩
  | .hbm, ⟨49, _⟩ => ⟨S8192x64, .bf16⟩
  | .hbm, ⟨50, _⟩ => ⟨S8192x8192, .f32⟩
  | .local _ .vmem, ⟨0, _⟩ => ⟨S1x1x64, .f32⟩
  | .local _ .vmem, ⟨1, _⟩ => ⟨S1x1x64, .f32⟩
  | .local _ .vmem, ⟨2, _⟩ => ⟨S1x1x64, .bf16⟩
  | .local _ .vmem, ⟨3, _⟩ => ⟨S1x1x64, .bf16⟩
  | .local _ .vmem, ⟨4, _⟩ => ⟨S1x1x64, .f32⟩
  | .local _ .vmem, ⟨5, _⟩ => ⟨S1x1x64, .f32⟩
  | .local _ .vmem, ⟨6, _⟩ => ⟨S1x1x64, .bf16⟩
  | .local _ .vmem, ⟨7, _⟩ => ⟨S1x1x64, .bf16⟩
  | .local _ .vmem, ⟨8, _⟩ => ⟨S1024x64, .bf16⟩
  | .local _ .vmem, ⟨9, _⟩ => ⟨S1024x64, .bf16⟩
  | .local _ .vmem, ⟨10, _⟩ => ⟨S1024x64, .bf16⟩
  | .local _ .vmem, ⟨11, _⟩ => ⟨S1024x64, .bf16⟩
  | .local _ .vmem, ⟨12, _⟩ => ⟨S1024x1024, .f32⟩
  | .local _ .vmem, ⟨13, _⟩ => ⟨S1024x1024, .f32⟩
  | .local _ .smem, ⟨0, _⟩ => ⟨S8192, .i32⟩
  | .local _ .smem, ⟨1, _⟩ => ⟨S8192, .i32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_c_1 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_c_3 : Ref sig .tc := ⟨.hbm, 22, rfl⟩
abbrev main_v2 : Ref sig .tc := ⟨.hbm, 23, rfl⟩
abbrev main_v3 : Ref sig .tc := ⟨.hbm, 24, rfl⟩
abbrev main_c_4 : Ref sig .tc := ⟨.hbm, 25, rfl⟩
abbrev main_c_5 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v5 : Ref sig .tc := ⟨.hbm, 32, rfl⟩
abbrev main_c_6 : Ref sig .tc := ⟨.hbm, 33, rfl⟩
abbrev main_c_7 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v6 : Ref sig .tc := ⟨.hbm, 40, rfl⟩
abbrev main_c_8 : Ref sig .tc := ⟨.hbm, 41, rfl⟩
abbrev main_v7 : Ref sig .tc := ⟨.hbm, 42, rfl⟩
abbrev main_v8 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v4 : Ref sig .tc := ⟨.smem, 0, rfl⟩
abbrev main_v9 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![8192], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S8192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8192], ![false]⟩

abbrev pre1 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S8192.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S8192) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S8192 : S_.BroadcastsInDim S8192 (![] : Fin 0 → Fin S8192.rank)
  shapeCasts_S1000000x64_S1000000x1x64 : S1000000x64.ShapeCasts S1000000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  bitsLt_bf16_f32 : FTy.bits .bf16 < FTy.bits .f32
  packedbf16_S1x1x64_S1x1x64_0_0_0 : (Rect.unit (s := S1x1x64) ![0, 0, 0] S1x1x64.size inb_S1x1x64_S1x1x64_0_0_0).PackedRows (EltTy.packing .bf16)
  shapeCasts_S8192x1x64_S8192x64 : S8192x1x64.ShapeCasts S8192x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  k0_off1_inb : ∀ i : grid0.Coords, ∀ a, (k0_off1 i) a + S1.size a ≤ S8192.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S8192x1x64.size a
  hwx0_1 : ∀ i : grid0.Coords, EltTy.bits .bf16 = 32 ∨ (Rect.block (s := S8192x1x64) S1x1x64.size (cc0_transform_1 i) (hinb0_1 i)).WholeWords (EltTy.packing .bf16)
  hrank1 : 0 < grid1.rank
  k1_off1_inb : ∀ i : grid1.Coords, ∀ a, (k1_off1 i) a + S1.size a ≤ S8192.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S8192x1x64.size a
  hwx1_1 : ∀ i : grid1.Coords, EltTy.bits .bf16 = 32 ∨ (Rect.block (s := S8192x1x64) S1x1x64.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .bf16 = 32 ∨ (Rect.block (s := S8192x64) S1024x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .bf16 = 32 ∨ (Rect.block (s := S8192x64) S1024x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev spec0_0 : Pipeline.WinSpec sig grid0.rank :=
  Pipeline.WinSpec.ofSpec (Memref.whole main_v10) S1x1x64.size reads0_0 false false 2 stage0_0 sem0_0 nbuf0_0 hstage0_0

abbrev spec0_1 : Pipeline.WinSpec sig grid0.rank :=
  Pipeline.WinSpec.ofSpec (Memref.whole main_v11) S1x1x64.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x64.size a ≤ S1000000x1x64.size a), EltTy.bits .f32 = 32 ∨ (Rect.block (s := S1000000x1x64) S1x1x64.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev spec1_0 : Pipeline.WinSpec sig grid1.rank :=
  Pipeline.WinSpec.ofSpec (Memref.whole main_v13) S1x1x64.size reads1_0 false false 2 stage1_0 sem1_0 nbuf1_0 hstage1_0

abbrev spec1_1 : Pipeline.WinSpec sig grid1.rank :=
  Pipeline.WinSpec.ofSpec (Memref.whole main_v14) S1x1x64.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 k1_off1_inb numel1_S1 pf | 1 => cc1_transform_1 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | ⟨_ + 2, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x64.size a ≤ S1000000x1x64.size a), EltTy.bits .f32 = 32 ∨ (Rect.block (s := S1000000x1x64) S1x1x64.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | ⟨_ + 2, h⟩ => absurd h (Nat.not_lt.2 (Nat.le_add_left _ _))
abbrev win2_0 : Pipeline.Window sig grid2 :=
  Pipeline.Window.ofSpec (Memref.whole main_v12) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  harr0 : ∀ w, (spec0 w).arr.IsWhole
  harr1 : ∀ w, (spec1 w).arr.IsWhole

variable [Facts]
-- ==== ReferenceIdeal.lean ====
abbrev S8192 : Shape := ⟨1, ![8192]⟩
abbrev S1000000x64 : Shape := ⟨2, ![1000000, 64]⟩
abbrev S_ : Shape := ⟨0, ![]⟩
abbrev S8192x1 : Shape := ⟨2, ![8192, 1]⟩
abbrev S8192x64 : Shape := ⟨2, ![8192, 64]⟩
abbrev S8192x8192 : Shape := ⟨2, ![8192, 8192]⟩

abbrev nBuf : Space → Nat
  | .hbm => 65
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S1000000x64, .f32⟩
  | .hbm, ⟨5, _⟩ => ⟨S1000000x64, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x64, .f32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S8192x1, .i32⟩
  | .hbm, ⟨63, _⟩ => ⟨S8192x64, .f32⟩
  | .hbm, ⟨64, _⟩ => ⟨S8192x8192, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_c_1 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_c_3 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c_4 : Ref sig .tc := ⟨.hbm, 26, rfl⟩
abbrev main_c_5 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v5 : Ref sig .tc := ⟨.hbm, 33, rfl⟩
abbrev main_c_6 : Ref sig .tc := ⟨.hbm, 34, rfl⟩
abbrev main_c_7 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v6 : Ref sig .tc := ⟨.hbm, 41, rfl⟩
abbrev main_c_8 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_c_9 : Ref sig .tc := ⟨.hbm, 46, rfl⟩
abbrev main_v10 : Ref sig .tc := ⟨.hbm, 47, rfl⟩
abbrev main_v11 : Ref sig .tc := ⟨.hbm, 48, rfl⟩
abbrev main_c_10 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_c_11 : Ref sig .tc := ⟨.hbm, 55, rfl⟩
abbrev main_v17 : Ref sig .tc := ⟨.hbm, 56, rfl⟩
abbrev main_v18 : Ref sig .tc := ⟨.hbm, 57, rfl⟩
abbrev main_c_12 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  gather_S1000000x64_S8192x1_S8192x64_1_0_n_n_0_1_164_wf : GatherDims.WF S1000000x64 S8192x1 S8192x64 [1] [0] [] [0] [] 1 ![1, 64]
  dot_S8192x64_S8192x64_S8192x8192_1_1_0_0_n_n_wf : DotDims.WF S8192x64 S8192x64 S8192x8192 [1] [1] [0] [0] [] []

variable [Facts₀]

def gather_S1000000x64_S8192x1_S8192x64_1_0_n_n_0_1_164 : GatherDims S1000000x64 S8192x1 S8192x64 where
  offsetDims := [1]
  collapsedSliceDims := [0]
  operandBatchingDims := []
  startIndicesBatchingDims := []
  startIndexMap := [0]
  indexVectorDim := 1
  sliceSizes := ![1, 64]
  wf := gather_S1000000x64_S8192x1_S8192x64_1_0_n_n_0_1_164_wf
def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Gather0B.lean ====
/-
  The first row-gather launch, at any admissible contents of its index table and any buffer contents at entry.
  Grid point t stages ONE row of the table array: the block of the [1000000, 1, 64] array whose leading
  index is the t-th word of the prefetched index vector, and the body copies that row (the change of float
  format is all it computes) into block t of the [8192, 1, 64] result. Nothing is carried between points.
-/
import proofs.«429174_j50319836840675_1_alg».proof.Proof.Gen.Kernel.Launch
import proofs.«429174_j50319836840675_1_alg».proof.Proof.Gen.Kernel.Skeleton
import proofs.«429174_j50319836840675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (a : (pcfg0 (F := F)).Adm)
variable (V : (c : Dev nD) → (b : Ref sig .tc) → Buf (Elt F) ((c : Thread nD τ).loc b))

/-- The staging memref each window is on at point `t`. -/
abbrev st0_0 (t : Fin (cfg0 a).N) := ((cfg0 a).win 0).stage ((cfg0 a).slots t 0)
abbrev st0_1 (t : Fin (cfg0 a).N) := ((cfg0 a).win 1).stage ((cfg0 a).slots t 1)

/-- The body as the pipeline calls it at point `t`. -/
abbrev bodyAt0 (t : Fin (cfg0 a).N) : Prog (TpuEff nD τ sig (Elt F) Λ₀ .tc) PUnit :=
  cc0__gather_kernel (grid0.coords t) (Memref.whole main_v4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

/-- Window `w`'s block at point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The input window's staging buffer holds its block at every point, fetched there or not. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 a V c 0 t) (t : Fin (cfg0 a).N) (d) : dat.before 0 t d = iblk0 a V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x1x64 := Rect.unit (s := S1x1x64) ![0, 0, 0] S1x1x64.size inb_S1x1x64_S1x1x64_0_0_0

/-- What the body leaves in the result window's buffer: the one store, of the row just loaded. -/
def out0_1 (x0 : Vec F S1x1x64 .f32) : Vec F S1x1x64 .bf16 :=
  View.canon [⟨r0_0, k0_pay1 (View.ld x0 r0_0)⟩]

theorem cover0_1 (p0 : Vec F S1x1x64 .bf16) (y : S1x1x64.Idx) :
    ∃ pc ∈ ([⟨r0_0, p0⟩] : List (View.Piece (Elt F) S1x1x64 .bf16)), y ∈ pc.1.set :=
  View.cover_of_tiled [⟨r0_0, p0⟩] S1x1x64.size (by rfl) y

set_option maxHeartbeats 1000000 in
/-- The body on whole staging memrefs: the row buffer read and left as it was, the result buffer overwritten. -/
theorem sound_kernel0 (c : Dev nD) (E : Set ℕ) (i : grid0.Coords) (arg1 : Memref sig .tc .smem S8192 .i32) (harg1 : arg1.IsWhole)
    (arg2 : Memref sig .tc .vmem S1x1x64 .f32) (harg2 : arg2.IsWhole) (arg3 : Memref sig .tc .vmem S1x1x64 .bf16) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The tables as the invariant carries them: the index vector's buffer, whole, at the contents the region runs at. -/
abbrev tabs0 (c : Dev nD) : sProp 𝕄 :=
  Pipeline.prefHeld (Ix := Unit) (Name := ℕ) (U := UR sig nD τ) (Lvl := ℕ) pre0 c (fun _ => fullShare) a.1

/-- The proof data: the arrays as the region finds them; after the body at point `t` the row buffer still holds
    its block and the result buffer the copied row; the invariant is the scoped rest, the generator register and
    the index table, none of which the body touches; nothing owed. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => out0_1 (iblk0 a V c 0 t)
  Φ _ := iprop(Pipeline.ΦA spec0 c ∗ tabs0 a c)
  q _ := fullShare
  owed _ := 0

theorem A_eq0 (c : Dev nD) (w : Fin (cfg0 a).W) : (dat0 a V c).A w = V c (Pipeline.arrRef spec0 w) := by
  dsimp only [dat0]

theorem after0_0 (c : Dev nD) (t : Fin (cfg0 a).N) : (dat0 a V c).after 0 t = iblk0 a V c 0 t := by dsimp only [dat0]; try rfl
theorem after0_1 (c : Dev nD) (t : Fin (cfg0 a).N) : (dat0 a V c).after 1 t = out0_1 (iblk0 a V c 0 t) := by dsimp only [dat0]; try rfl

theorem before0_0 (c : Dev nD) (t : Fin (cfg0 a).N) (d) : (dat0 a V c).before 0 t d = iblk0 a V c 0 t :=
  before0_0_of a V (dat0 a V c) (A_eq0 a V c 0) (after0_0 a V c) t d

def bodyPre0 (c : Dev nD) (t : Fin (cfg0 a).N) : sProp 𝕄 :=
  iprop((dat0 a V c).Φ t.castSucc ∗ (dat0 a V c).owesAt () t.castSucc
    ∗ (∃ d, owns (c : Thread nD τ) (st0_0 a t) fullShare ((dat0 a V c).before 0 t d))
    ∗ (∃ d, owns (c : Thread nD τ) (st0_1 a t) fullShare ((dat0 a V c).before 1 t d)))

def bodyPost0 (c : Dev nD) (t : Fin (cfg0 a).N) : sProp 𝕄 :=
  iprop((dat0 a V c).Φ t.succ ∗ (dat0 a V c).owesAt () t.succ
    ∗ owns (c : Thread nD τ) (st0_0 a t) fullShare ((dat0 a V c).after 0 t)
    ∗ owns (c : Thread nD τ) (st0_1 a t) fullShare ((dat0 a V c).after 1 t))

/-- The body at any point: the row buffer holds its block, the invariant and the core's dues pass through unread. -/
theorem sound_body0 (c : Dev nD) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  simp only [before0_0]
  rw [show (dat0 a V c).Φ t.succ = (dat0 a V c).Φ t.castSucc from rfl,
    show (dat0 a V c).owesAt () t.succ = (dat0 a V c).owesAt () t.castSucc from rfl,
    after0_0, after0_1]
  iintro ⟨HΦ, Ho, ⟨%d0, H0⟩, ⟨%d1, H1⟩⟩
  iapply (sound_kernel0 c Set.univ _ _ _ _ _ _ _ (iblk0 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) a V c) (defs₀ (F := F)) Variants.none () Set.univ := fun t => by
  rw [bigSep_W0, bigSep_W0]
  exact sound_body0 a V c t

end Region0

end Cert.Kernel.Hand

end
-- ==== Proof.Gather1B.lean ====
/-
  The second row-gather launch, at any admissible contents of its index table and any buffer contents at entry.
  Grid point t stages ONE row of the table array: the block of the [1000000, 1, 64] array whose leading
  index is the t-th word of the prefetched index vector, and the body copies that row (the change of float
  format is all it computes) into block t of the [8192, 1, 64] result. Nothing is carried between points.
-/
import proofs.«429174_j50319836840675_1_alg».proof.Proof.Gen.Kernel.Launch
import proofs.«429174_j50319836840675_1_alg».proof.Proof.Gen.Kernel.Skeleton
import proofs.«429174_j50319836840675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (a : (pcfg1 (F := F)).Adm)
variable (V : (c : Dev nD) → (b : Ref sig .tc) → Buf (Elt F) ((c : Thread nD τ).loc b))

/-- The staging memref each window is on at point `t`. -/
abbrev st1_0 (t : Fin (cfg1 a).N) := ((cfg1 a).win 0).stage ((cfg1 a).slots t 0)
abbrev st1_1 (t : Fin (cfg1 a).N) := ((cfg1 a).win 1).stage ((cfg1 a).slots t 1)

/-- The body as the pipeline calls it at point `t`. -/
abbrev bodyAt1 (t : Fin (cfg1 a).N) : Prog (TpuEff nD τ sig (Elt F) Λ₀ .tc) PUnit :=
  cc1__gather_kernel (grid1.coords t) (Memref.whole main_v9) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1))

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The input window's staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 a V c 0 t) (t : Fin (cfg1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x1x64 := Rect.unit (s := S1x1x64) ![0, 0, 0] S1x1x64.size inb_S1x1x64_S1x1x64_0_0_0

/-- What the body leaves in the result window's buffer: the one store, of the row just loaded. -/
def out1_1 (x0 : Vec F S1x1x64 .f32) : Vec F S1x1x64 .bf16 :=
  View.canon [⟨r1_0, k1_pay1 (View.ld x0 r1_0)⟩]

theorem cover1_1 (p0 : Vec F S1x1x64 .bf16) (y : S1x1x64.Idx) :
    ∃ pc ∈ ([⟨r1_0, p0⟩] : List (View.Piece (Elt F) S1x1x64 .bf16)), y ∈ pc.1.set :=
  View.cover_of_tiled [⟨r1_0, p0⟩] S1x1x64.size (by rfl) y

set_option maxHeartbeats 1000000 in
/-- The body on whole staging memrefs: the row buffer read and left as it was, the result buffer overwritten. -/
theorem sound_kernel1 (c : Dev nD) (E : Set ℕ) (i : grid1.Coords) (arg1 : Memref sig .tc .smem S8192 .i32) (harg1 : arg1.IsWhole)
    (arg2 : Memref sig .tc .vmem S1x1x64 .f32) (harg2 : arg2.IsWhole) (arg3 : Memref sig .tc .vmem S1x1x64 .bf16) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The tables as the invariant carries them: the index vector's buffer, whole, at the contents the region runs at. -/
abbrev tabs1 (c : Dev nD) : sProp 𝕄 :=
  Pipeline.prefHeld (Ix := Unit) (Name := ℕ) (U := UR sig nD τ) (Lvl := ℕ) pre1 c (fun _ => fullShare) a.1

/-- The proof data: the arrays as the region finds them; after the body at point `t` the row buffer still holds
    its block and the result buffer the copied row; the invariant is the scoped rest, the generator register and
    the index table, none of which the body touches; nothing owed. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => out1_1 (iblk1 a V c 0 t)
  Φ _ := iprop(Pipeline.ΦA spec1 c ∗ tabs1 a c)
  q _ := fullShare
  owed _ := 0

theorem A_eq1 (c : Dev nD) (w : Fin (cfg1 a).W) : (dat1 a V c).A w = V c (Pipeline.arrRef spec1 w) := by
  dsimp only [dat1]

theorem after1_0 (c : Dev nD) (t : Fin (cfg1 a).N) : (dat1 a V c).after 0 t = iblk1 a V c 0 t := by dsimp only [dat1]; try rfl
theorem after1_1 (c : Dev nD) (t : Fin (cfg1 a).N) : (dat1 a V c).after 1 t = out1_1 (iblk1 a V c 0 t) := by dsimp only [dat1]; try rfl

theorem before1_0 (c : Dev nD) (t : Fin (cfg1 a).N) (d) : (dat1 a V c).before 0 t d = iblk1 a V c 0 t :=
  before1_0_of a V (dat1 a V c) (A_eq1 a V c 0) (after1_0 a V c) t d

def bodyPre1 (c : Dev nD) (t : Fin (cfg1 a).N) : sProp 𝕄 :=
  iprop((dat1 a V c).Φ t.castSucc ∗ (dat1 a V c).owesAt () t.castSucc
    ∗ (∃ d, owns (c : Thread nD τ) (st1_0 a t) fullShare ((dat1 a V c).before 0 t d))
    ∗ (∃ d, owns (c : Thread nD τ) (st1_1 a t) fullShare ((dat1 a V c).before 1 t d)))

def bodyPost1 (c : Dev nD) (t : Fin (cfg1 a).N) : sProp 𝕄 :=
  iprop((dat1 a V c).Φ t.succ ∗ (dat1 a V c).owesAt () t.succ
    ∗ owns (c : Thread nD τ) (st1_0 a t) fullShare ((dat1 a V c).after 0 t)
    ∗ owns (c : Thread nD τ) (st1_1 a t) fullShare ((dat1 a V c).after 1 t))

/-- The body at any point: the row buffer holds its block, the invariant and the core's dues pass through unread. -/
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0]
  rw [show (dat1 a V c).Φ t.succ = (dat1 a V c).Φ t.castSucc from rfl,
    show (dat1 a V c).owesAt () t.succ = (dat1 a V c).owesAt () t.castSucc from rfl,
    after1_0, after1_1]
  iintro ⟨HΦ, Ho, ⟨%d0, H0⟩, ⟨%d1, H1⟩⟩
  iapply (sound_kernel1 c Set.univ _ _ _ _ _ _ _ (iblk1 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) a V c) (defs₀ (F := F)) Variants.none () Set.univ := fun t => by
  rw [bigSep_W1, bigSep_W1]
  exact sound_body1 a V c t

end Region1

end Cert.Kernel.Hand

end
-- ==== Proof.Matmul2B.lean ====
/-
  The matrix-product launch at any buffer contents at entry. The grid is 8 × 8; point (p, q) stages rows
  1024p … 1024p+1023 of the left [8192, 64] array and rows 1024q … 1024q+1023 of the right one, and the body stores
  into block (p, q) of the [8192, 8192] result the product of the left block with the transpose of the right
  block, accumulated from zero. Nothing is carried between points.
-/
import proofs.«429174_j50319836840675_1_alg».proof.Proof.Gen.Kernel.Launch
import proofs.«429174_j50319836840675_1_alg».proof.Proof.Gen.Kernel.Skeleton
import proofs.«429174_j50319836840675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_in : Rect S1024x64 := Rect.unit (s := S1024x64) ![0, 0] S1024x64.size inb_S1024x64_S1024x64_0_0
abbrev r2_out : Rect S1024x1024 := Rect.unit (s := S1024x1024) ![0, 0] S1024x1024.size inb_S1024x1024_S1024x1024_0_0

/-- What the body leaves in the result window's buffer: its one store, of the product of the two loaded blocks. -/
def out2_2 (x0 x1 : Vec F S1024x64 .bf16) : Vec F S1024x1024 .f32 :=
  View.canon [⟨r2_out, k2_pay1 (View.ld x0 r2_in) (View.ld x1 r2_in)⟩]

theorem cover2_2 (p0 : Vec F S1024x1024 .f32) (y : S1024x1024.Idx) :
    ∃ pc ∈ ([⟨r2_out, p0⟩] : List (View.Piece (Elt F) S1024x1024 .f32)), y ∈ pc.1.set :=
  View.cover_of_tiled [⟨r2_out, p0⟩] S1024x1024.size (by rfl) y

set_option maxHeartbeats 1000000 in
/-- The body on whole staging memrefs: both operand buffers read and left as they were, the result buffer overwritten. -/
theorem sound_kernel2 (c : Dev nD) (E : Set ℕ) (i : grid2.Coords)
    (arg2 : Memref sig .tc .vmem S1024x64 .bf16) (harg2 : arg2.IsWhole) (arg3 : Memref sig .tc .vmem S1024x64 .bf16) (harg3 : arg3.IsWhole)
    (arg4 : Memref sig .tc .vmem S1024x1024 .f32) (harg4 : arg4.IsWhole)
    (x0 x1 : Vec F S1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data: the arrays as the region finds them; after the body at point `t` each operand buffer still
    holds its block and the result buffer the product of the two; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operand buffers hold their blocks, the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.RunB.lean ====
/-
  The whole program: fourteen items in order — nine stretches of host operations that compute the two index
  vectors (a clamp of each observation and action, ten times the one plus the other) and view the first table
  as [1000000, 1, 64]; the first row gather; a stretch that flattens its result to [8192, 64] and views the
  second table; the second row gather; a stretch that flattens its result; the matrix product. Between two
  items every unscoped buffer is held at a named valuation; each launch takes its windows' arrays (and a row
  gather its index vector) out of that valuation at entry and puts them back at exit, the result array at what
  its write-backs leave. The run ends with the product's result array at what the last launch leaves and every
  argument array as launched.
-/
import proofs.«429174_j50319836840675_1_alg».proof.Proof.Gen.Kernel.Launch
import proofs.«429174_j50319836840675_1_alg».proof.Proof.Gen.Kernel.Skeleton
import proofs.«429174_j50319836840675_1_alg».proof.Proof.Gen.Kernel.Points
import proofs.«429174_j50319836840675_1_alg».proof.Proof.Gather0B
import proofs.«429174_j50319836840675_1_alg».proof.Proof.Gather1B
import proofs.«429174_j50319836840675_1_alg».proof.Proof.Matmul2B
import proofs.«429174_j50319836840675_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section Run

variable (m : (ℓ : Loc nD τ sig) → Buf (Elt F) ℓ) (ρ : Dev nD → PrngReg)
variable (a0 : (pcfg0 (F := F)).Adm) (a1 : (pcfg1 (F := F)).Adm) (outs : Outs (F := F))

/-- The index vectors' contents the two gathers run at; the product has no table. -/
abbrev adm : (p : Fin 3) → (pcfgs (F := F) p).Adm :=
  fun | ⟨0, _⟩ => a0 | ⟨1, _⟩ => a1 | ⟨2, _⟩ => cfg2.toPCfg_adm | ⟨_ + 3, h⟩ => absurd h (Nat.not_lt.2 (Nat.le_add_left _ _))

/-- The buffers' contents at each launch's entry and exit, read at the TensorCore's references. -/
abbrev E9 (c : Dev nD) (b : Ref sig .tc) : Buf (Elt F) ((c : Thread nD τ).loc b) := V9 m c b
abbrev E10 (c : Dev nD) (b : Ref sig .tc) : Buf (Elt F) ((c : Thread nD τ).loc b) := V10 m outs c b
abbrev E11 (c : Dev nD) (b : Ref sig .tc) : Buf (Elt F) ((c : Thread nD τ).loc b) := V11 m outs c b
abbrev E12 (c : Dev nD) (b : Ref sig .tc) : Buf (Elt F) ((c : Thread nD τ).loc b) := V12 m outs c b
abbrev E13 (c : Dev nD) (b : Ref sig .tc) : Buf (Elt F) ((c : Thread nD τ).loc b) := V13 m outs c b
abbrev E14 (c : Dev nD) (b : Ref sig .tc) : Buf (Elt F) ((c : Thread nD τ).loc b) := V14 m outs c b

/-- Every launch's proof data, each at its entry contents. -/
def pdats : (p : Fin 3) → (c : Dev nD) → Dat τ (Elt F) Unit ℕ (UR sig nD τ) ℕ (Pipeline.pin (pcfgs (F := F)) (adm a0 a1) p) c
  | ⟨0, _⟩ => fun c => dat0 a0 (E9 m) c
  | ⟨1, _⟩ => fun c => dat1 a1 (E11 m outs) c
  | ⟨2, _⟩ => fun c => dat2 (E13 m outs) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev ER : Fin 4 → Dev nD → sProp 𝕄 := fun _ => R

-- the index vectors at entry are the admissible contents; each result array ends at what its launch's write-backs leave
variable (hpf0 : ∀ c k, E9 m c (pre0.ref k) = a0.1 k) (hpf1 : ∀ c k, E11 m outs c (pre1.ref k) = a1.1 k)
variable (ho10 : ∀ c, outs 10 main_v11 c = (dat0 a0 (E9 m) c).arrAt 1 (cfg0 a0).N)
variable (ho12 : ∀ c, outs 12 main_v14 c = (dat1 a1 (E11 m outs) c).arrAt 1 (cfg1 a1).N)
variable (ho14 : ∀ c, outs 14 main_v16 c = (dat2 (E13 m outs) c).arrAt 2 cfg2.N)

theorem E10_v11 (c : Dev nD) : E10 m outs c main_v11 = outs 10 main_v11 c := by
  show Function.update (V9 m c) _ _ _ = _; exact Function.update_self ..
theorem E12_v14 (c : Dev nD) : E12 m outs c main_v14 = outs 12 main_v14 c := by
  show Function.update (V11 m outs c) _ _ _ = _; exact Function.update_self ..
theorem E14_v16 (c : Dev nD) : E14 m outs c main_v16 = outs 14 main_v16 c := by
  show Function.update (V13 m outs c) _ _ _ = _; exact Function.update_self ..

include ho10 in
theorem hF0 (c : Dev nD) (w : Fin (cfg0 a0).W) : (dat0 a0 (E9 m) c).arrAt w (cfg0 a0).N = E10 m outs c (Pipeline.arrRef spec0 w) :=
  match w with
  | ⟨0, _⟩ => ((dat0 a0 (E9 m) c).arrAt_in 0 rfl _).trans ((A_eq0 a0 (E9 m) c 0).trans (V10_of m outs c main_v10 (by decide)).symm)
  | ⟨1, _⟩ => ((E10_v11 m outs c).trans (ho10 c)).symm
theorem hrest0 (c : Dev nD) : ∀ b, b ∉ Finset.univ.image (Pipeline.arrRef spec0) → E10 m outs c b = E9 m c b :=
  fun b hb => V10_of m outs c b fun h => hb (Finset.mem_image.mpr ⟨1, Finset.mem_univ _, (List.mem_singleton.mp h).symm⟩)

include ho12 in
theorem hF1 (c : Dev nD) (w : Fin (cfg1 a1).W) : (dat1 a1 (E11 m outs) c).arrAt w (cfg1 a1).N = E12 m outs c (Pipeline.arrRef spec1 w) :=
  match w with
  | ⟨0, _⟩ => ((dat1 a1 (E11 m outs) c).arrAt_in 0 rfl _).trans ((A_eq1 a1 (E11 m outs) c 0).trans (V12_of m outs c main_v13 (by decide)).symm)
  | ⟨1, _⟩ => ((E12_v14 m outs c).trans (ho12 c)).symm
theorem hrest1 (c : Dev nD) : ∀ b, b ∉ Finset.univ.image (Pipeline.arrRef spec1) → E12 m outs c b = E11 m outs c b :=
  fun b hb => V12_of m outs c b fun h => hb (Finset.mem_image.mpr ⟨1, Finset.mem_univ _, (List.mem_singleton.mp h).symm⟩)

include ho14 in
theorem hF2 (c : Dev nD) (w : Fin cfg2.W) : (dat2 (E13 m outs) c).arrAt w cfg2.N = E14 m outs c (Pipeline.arrRef spec2 w) :=
  match w with
  | ⟨0, _⟩ => ((dat2 (E13 m outs) c).arrAt_in 0 rfl _).trans ((A_eq2 (E13 m outs) c 0).trans (V14_of m outs c main_v12 (by decide)).symm)
  | ⟨1, _⟩ => ((dat2 (E13 m outs) c).arrAt_in 1 rfl _).trans ((A_eq2 (E13 m outs) c 1).trans (V14_of m outs c main_v15 (by decide)).symm)
  | ⟨2, _⟩ => ((E14_v16 m outs c).trans (ho14 c)).symm
theorem hrest2 (c : Dev nD) : ∀ b, b ∉ Finset.univ.image (Pipeline.arrRef spec2) → E14 m outs c b = E13 m outs c b :=
  fun b hb => V14_of m outs c b fun h => hb (Finset.mem_image.mpr ⟨2, Finset.mem_univ _, (List.mem_singleton.mp h).symm⟩)

include hpf0 ho10 in
set_option backward.isDefEq.respectTransparency.types false in
/-- Row gather 0 as an item: entered from every unscoped buffer at its entry valuation, left at the exit valuation.
    Its arrays AND its index vector are taken out of the unscoped buffers at entry and put back at exit; the index
    vector and the generator register go into the invariant and come back; nothing owed; no semaphore of its own. -/
def reg0 : Pipeline.RegionSeg (pcfgs (F := F)) (adm a0 a1) (pdats m a0 a1 outs) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 a0 (E9 m) c).loose
  hwaits := Pipeline.hwaits_of_owed_zero (pcfgs (F := F)) (adm a0 a1) (pdats m a0 a1 outs) () L lv 0 fun _ _ => rfl
  pre c := iprop(StableHlo.held (c : Thread nD τ) (Pipeline.ucRefs τ sig) (V9 m c) ∗ R c)
  post c := iprop(StableHlo.held (c : Thread nD τ) (Pipeline.ucRefs τ sig) (V10 m outs c) ∗ R c)
  X c := iprop(∃ r, prngReg c r)
  Y c := iprop((∃ r, prngReg c r) ∗ tabs0 a0 c)
  Z c := Pipeline.unscopedRestP (Ix := Unit) (Name := ℕ) (U := UR sig nD τ) (Lvl := ℕ) pre0 spec0 c (E9 m c)
  hentry c := by
    rw [Pipeline.ownSems0_none]
    have hsplit : (unscopedBufs c (E9 m c) : sProp 𝕄) ⊢ iprop((pdats m a0 a1 outs 0 c).arrays ((pdats m a0 a1 outs 0 c).arrAt · 0) ∗ Pipeline.unscopedRest spec0 c (E9 m c)) := Pipeline.arrays_of_unscopedBufs (p := 0) (pcfgs (F := F)) (adm a0 a1) (pdats m a0 a1 outs) (launch0 (F := F)).win (launch0 (F := F)).arr_whole c
      ((pdats m a0 a1 outs 0 c).share_full fun _ => rfl) (E9 m c) fun _ => rfl
    rw [Pipeline.unscopedBufs_held, Pipeline.unscopedRest_split preFacts0 c (E9 m c),
      show (fun k => E9 m c (pre0.ref k)) = a0.1 from funext (hpf0 c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 a1 outs 0 c).Φ 0 = iprop(Pipeline.ΦA spec0 c ∗ tabs0 a0 c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m a0 a1 outs 0 c).Φ (Fin.last _) = iprop(Pipeline.ΦA spec0 c ∗ tabs0 a0 c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m a0 a1 outs 0 c).arrays ((pdats m a0 a1 outs 0 c).arrAt · (cfg0 a0).N) ∗ Pipeline.unscopedRest spec0 c (E9 m c)) ⊢ (unscopedBufs c (E10 m outs c) : sProp 𝕄) := Pipeline.unscopedBufs_of_arrays (p := 0) (pcfgs (F := F)) (adm a0 a1) (Ix := Unit) (Name := ℕ) (U := UR sig nD τ) (Lvl := ℕ)
      (launch0 (F := F)).win (launch0 (F := F)).arr_whole c (pdats m a0 a1 outs) ((pdats m a0 a1 outs 0 c).share_full fun _ => rfl)
      (E9 m c) (E10 m outs c) ((pdats m a0 a1 outs 0 c).arrAt · (cfg0 a0).N) (hF0 m a0 outs ho10 c) (hrest0 m outs c)
    rw [Pipeline.unscopedBufs_held, Pipeline.unscopedRest_split preFacts0 c (E9 m c),
      show (fun k => E9 m c (pre0.ref k)) = a0.1 from funext (hpf0 c)] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

include hpf1 ho12 in
set_option backward.isDefEq.respectTransparency.types false in
/-- Row gather 1 as an item: entered from every unscoped buffer at its entry valuation, left at the exit valuation.
    Its arrays AND its index vector are taken out of the unscoped buffers at entry and put back at exit; the index
    vector and the generator register go into the invariant and come back; nothing owed; no semaphore of its own. -/
def reg1 : Pipeline.RegionSeg (pcfgs (F := F)) (adm a0 a1) (pdats m a0 a1 outs) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 a1 (E11 m outs) c).loose
  hwaits := Pipeline.hwaits_of_owed_zero (pcfgs (F := F)) (adm a0 a1) (pdats m a0 a1 outs) () L lv 1 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop((∃ r, prngReg c r) ∗ tabs1 a1 c)
  Z c := Pipeline.unscopedRestP (Ix := Unit) (Name := ℕ) (U := UR sig nD τ) (Lvl := ℕ) pre1 spec1 c (E11 m outs c)
  hentry c := by
    rw [Pipeline.ownSems0_none]
    have hsplit : (unscopedBufs c (E11 m outs c) : sProp 𝕄) ⊢ iprop((pdats m a0 a1 outs 1 c).arrays ((pdats m a0 a1 outs 1 c).arrAt · 0) ∗ Pipeline.unscopedRest spec1 c (E11 m outs c)) := Pipeline.arrays_of_unscopedBufs (p := 1) (pcfgs (F := F)) (adm a0 a1) (pdats m a0 a1 outs) (launch1 (F := F)).win (launch1 (F := F)).arr_whole c
      ((pdats m a0 a1 outs 1 c).share_full fun _ => rfl) (E11 m outs c) fun _ => rfl
    rw [Pipeline.unscopedBufs_held, Pipeline.unscopedRest_split preFacts1 c (E11 m outs c),
      show (fun k => E11 m outs c (pre1.ref k)) = a1.1 from funext (hpf1 c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 a1 outs 1 c).Φ 0 = iprop(Pipeline.ΦA spec1 c ∗ tabs1 a1 c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m a0 a1 outs 1 c).Φ (Fin.last _) = iprop(Pipeline.ΦA spec1 c ∗ tabs1 a1 c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m a0 a1 outs 1 c).arrays ((pdats m a0 a1 outs 1 c).arrAt · (cfg1 a1).N) ∗ Pipeline.unscopedRest spec1 c (E11 m outs c)) ⊢ (unscopedBufs c (E12 m outs c) : sProp 𝕄) := Pipeline.unscopedBufs_of_arrays (p := 1) (pcfgs (F := F)) (adm a0 a1) (Ix := Unit) (Name := ℕ) (U := UR sig nD τ) (Lvl := ℕ)
      (launch1 (F := F)).win (launch1 (F := F)).arr_whole c (pdats m a0 a1 outs) ((pdats m a0 a1 outs 1 c).share_full fun _ => rfl)
      (E11 m outs c) (E12 m outs c) ((pdats m a0 a1 outs 1 c).arrAt · (cfg1 a1).N) (hF1 m a1 outs ho12 c) (hrest1 m outs c)
    rw [Pipeline.unscopedBufs_held, Pipeline.unscopedRest_split preFacts1 c (E11 m outs c),
      show (fun k => E11 m outs c (pre1.ref k)) = a1.1 from funext (hpf1 c)] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

include ho14 in
set_option backward.isDefEq.respectTransparency.types false in
/-- The matrix product as an item: entered from every unscoped buffer at its entry valuation, left at the last
    valuation beside the generator register and nothing owed. Its arrays are taken out of the unscoped buffers at entry
    and put back at exit; the generator register goes into the class invariant and comes back. -/
def reg2 : Pipeline.RegionSeg (pcfgs (F := F)) (adm a0 a1) (pdats m a0 a1 outs) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (E13 m outs) c).loose
  hwaits := Pipeline.hwaits_of_owed_zero (pcfgs (F := F)) (adm a0 a1) (pdats m a0 a1 outs) () L lv 2 fun _ _ => rfl
  pre c := iprop(StableHlo.held (c : Thread nD τ) (Pipeline.ucRefs τ sig) (V13 m outs c) ∗ R c)
  post c := iprop(iprop(StableHlo.held (c : Thread nD τ) (Pipeline.ucRefs τ sig) (V14 m outs c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E13 m outs c)
  hentry c := by
    rw [Pipeline.ownSems0_none]
    have hsplit := Pipeline.arrays_of_unscopedBufs (p := 2) (pcfgs (F := F)) (adm a0 a1) (pdats m a0 a1 outs) (launch2 (F := F)).win (launch2 (F := F)).arr_whole c
      ((pdats m a0 a1 outs 2 c).share_full fun _ => rfl) (E13 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 a1 outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m a0 a1 outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm a0 a1) (Ix := Unit) (Name := ℕ) (U := UR sig nD τ) (Lvl := ℕ)
      (launch2 (F := F)).win (launch2 (F := F)).arr_whole c (pdats m a0 a1 outs) ((pdats m a0 a1 outs 2 c).share_full fun _ => rfl)
      (E13 m outs c) (E14 m outs c) ((pdats m a0 a1 outs 2 c).arrAt · cfg2.N) (hF2 m outs ho14 c) (hrest2 m outs c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hpf0 hpf1 ho10 ho12 ho14 in
set_option backward.isDefEq.respectTransparency.types false in
/-- THE RUN. From any memory with zero counters every weakly fair execution of the program terminates, nothing
    faulting, with the product's result array at what the last launch's write-backs leave and every argument array
    as launched: the launch theorem for a list of items over the three records above, the last thread state read
    against the final memory. -/
theorem run_value : θ_run defs (onTc (τ := τ) (main (F := F))) ⟨m, fun _ => 0, ρ⟩ (fun r => ∀ c : Dev nD,
      r.2.mem ((c.tc : Thread nD τ).loc main_v16) = outs 14 main_v16 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) (adm a0 a1) (pdats m a0 a1 outs) () (cellOf_inj (adm a0 a1)) emb₁ defs₀ 𝒱₀ L lv m ρ main
    (segs m outs 𝒱₀ L lv ER () (adm a0 a1) (pdats m a0 a1 outs) (reg0 m a0 a1 outs hpf0 ho10) (reg1 m a0 a1 outs hpf1 ho12) (reg2 m a0 a1 outs ho14))
    (fun c Q => by
      rewrite [main_chain c, Seg.run_eq_chain,
        show (segs m outs 𝒱₀ L lv ER () (adm a0 a1) (pdats m a0 a1 outs) (reg0 m a0 a1 outs hpf0 ho10) (reg1 m a0 a1 outs hpf1 ho12) (reg2 m a0 a1 outs ho14) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells (Pipeline.pin (pcfgs (F := F)) (adm a0 a1)) (cellOf_inj (adm a0 a1))) (Pipeline.launchToks (Pipeline.pin (pcfgs (F := F)) (adm a0 a1)) (cellOf_inj (adm a0 a1))))
    (hu₀ := by
      iintro Hu; imodintro
      isplitl [Hu]
      · iapply (show (ownU (initOf (Pipeline.cells (Pipeline.pin (pcfgs (F := F)) (adm a0 a1)) (cellOf_inj (adm a0 a1))) (Pipeline.launchToks (Pipeline.pin (pcfgs (F := F)) (adm a0 a1)) (cellOf_inj (adm a0 a1)))) : sProp 𝕄)
            ⊢ BI.own (emb₁ (initOf (Pipeline.cells (Pipeline.pin (pcfgs (F := F)) (adm a0 a1)) (cellOf_inj (adm a0 a1))) (Pipeline.launchToks (Pipeline.pin (pcfgs (F := F)) (adm a0 a1)) (cellOf_inj (adm a0 a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V14 m outs c) ∗ ∃ r, prngReg c r))
    (hch := fun c => ⟨.rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v16) = outs 14 main_v16 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  unfold StableHlo.held
  iintro ⟨⟨Hh, -⟩, HSI⟩
  ihave Hr := (pointsTo_read_all (Pipeline.ucRefs τ sig) (fun b => ((c : Thread nD τ).1, b)) (V14 m outs c) s') $$ [Hh HSI]
  · isplitl [Hh] <;> iassumption
  icases Hr with ⟨%h, HSI⟩
  imodintro
  isplitr
  · ipureintro
    exact ⟨(h (Proc.devRef .tc main_v16) (Finset.mem_filter.mpr ⟨StableHlo.devRef_mem_tcRefs main_v16, by decide⟩)).trans (E14_v16 m outs c),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c)⟩
  · iexact HSI

end Run

end Cert.Kernel.Hand

end
-- ==== Proof.RowIndexB.lean ====
/-
  The index vectors. Each is, entry by entry, one function of an observation word and an action word:
  the observation clamped to [0, 99999], times ten, plus the action clamped to [0, 9], all in 32-bit words read as
  signed integers. Whatever the two words are, the result lies in [0, 999999]: no product or sum wraps, the word is
  not negative as a signed integer, and as a row number it is inside the table's 1000000 rows. That range is what
  makes every row block of a gather lie inside its array.
-/
import proofs.«429174_j50319836840675_1_alg».proof.Proof.Gen.Kernel.Regions
import Idealize.ShloMosaic.Lib.StableHlo.Run

noncomputable section

namespace Cert.Kernel.Hand

open Cert.Kernel Cert.Kernel.Gen
open Idealize.ShloMosaic Idealize.ShloMosaic.TcCoe Idealize.SL.Sem Idealize.ShloMosaic.StableHlo

/-- A word clamped from below by zero and from above by `hi`, as signed integers. -/
def clampWord (hi x : BitVec 32) : BitVec 32 := IntOp.minsi hi (IntOp.maxsi 0#32 x)

/-- The clamp lands in [0, hi] when `hi` is a nonnegative signed word. -/
theorem clampWord_le (hi x : BitVec 32) (hhi : hi.toNat < 2 ^ 31) : (clampWord hi x).toNat ≤ hi.toNat := by
  unfold clampWord IntOp.minsi IntOp.maxsi
  simp only [BitVec.slt, BitVec.toInt_eq_toNat_cond, BitVec.toNat_ofNat, decide_eq_true_eq]
  have hx := x.isLt
  split_ifs <;> simp_all <;> omega

/-- The row number of an (observation, action) pair. -/
def rowWord (o a : BitVec 32) : BitVec 32 :=
  IntOp.addi (IntOp.muli (clampWord 99999#32 o) 10#32) (clampWord 9#32 a)

theorem rowWord_toNat (o a : BitVec 32) :
    (rowWord o a).toNat = (clampWord 99999#32 o).toNat * 10 + (clampWord 9#32 a).toNat := by
  have h1 := clampWord_le 99999#32 o (by decide)
  have h2 := clampWord_le 9#32 a (by decide)
  simp only [BitVec.toNat_ofNat] at h1 h2
  unfold rowWord IntOp.addi IntOp.muli
  simp only [BitVec.toNat_add, BitVec.toNat_mul, BitVec.toNat_ofNat]
  omega

/-- Every row number is inside the table. -/
theorem rowWord_lt (o a : BitVec 32) : (rowWord o a).toNat < 1000000 := by
  have h1 := clampWord_le 99999#32 o (by decide)
  have h2 := clampWord_le 9#32 a (by decide)
  simp only [BitVec.toNat_ofNat] at h1 h2
  rw [rowWord_toNat]; omega

end Cert.Kernel.Hand

end
-- ==== Proof.TablesB.lean ====
/-
  The index vectors as the program computes them. At the first gather's entry the vector it prefetches holds,
  at entry i, the row number of (observations[i], actions[i]); the second gather's vector, computed by the same
  nine stretches, holds that of (future_observations[i], future_actions[i]). Since every row number is below
  1000000, the block a gather stages at any grid point — one row of the [1000000, 1, 64] view of its table — lies
  inside the array: the pipeline's side condition on the tables' contents.
-/
import proofs.«429174_j50319836840675_1_alg».proof.Proof.RowIndexB

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The index vector of two word vectors, as the nine stretches compute it: both clamped against broadcast
    constants, the first times a broadcast ten, plus the second. -/
def rowVec (x0 x1 : (⟨S8192, .i32⟩ : BufTy).Contents (Elt F)) : (⟨S8192, .i32⟩ : BufTy).Contents (Elt F) :=
  addi (muli (minsi (broadcastInDim S8192 ![] bcast_S_S8192 (id (constantI S_ 32 99999#32))) (maxsi (broadcastInDim S8192 ![] bcast_S_S8192 (id (constantI S_ 32 0#32))) x0))
      (broadcastInDim S8192 ![] bcast_S_S8192 (constantI S_ 32 10#32)))
    (minsi (broadcastInDim S8192 ![] bcast_S_S8192 (id (constantI S_ 32 9#32))) (maxsi (broadcastInDim S8192 ![] bcast_S_S8192 (id (constantI S_ 32 0#32))) x1))

/-- Entry by entry it is the row number of the two words. -/
theorem rowVec_apply (x0 x1 : (⟨S8192, .i32⟩ : BufTy).Contents (Elt F)) (i : S8192.Idx) :
    rowVec (F := F) x0 x1 i = rowWord (x0 i) (x1 i) := rfl

set_option maxRecDepth 8192 in
set_option maxHeartbeats 2000000 in
/-- The first gather's index vector at its entry. -/
theorem v4_at_entry (c : Dev nD) :
    (V9 m c (Proc.devRef .tc main_v4) : (⟨S8192, .i32⟩ : BufTy).Contents (Elt F))
      = rowVec (F := F) (m ((c.tc : Thread nD τ).loc main_arg0)) (m ((c.tc : Thread nD τ).loc main_arg1)) := by
  after_results
  rfl

set_option maxRecDepth 8192 in
set_option maxHeartbeats 2000000 in
/-- The second gather's index vector, already at the first gather's entry (no later item writes it). -/
theorem v9_at_entry (c : Dev nD) :
    (V9 m c (Proc.devRef .tc main_v9) : (⟨S8192, .i32⟩ : BufTy).Contents (Elt F))
      = rowVec (F := F) (m ((c.tc : Thread nD τ).loc main_arg2)) (m ((c.tc : Thread nD τ).loc main_arg3)) := by
  after_results
  rfl

/-- A table whose every word is a row number inside the table meets the first gather's side condition. -/
theorem ok0_of_lt (pf : pre0.Contents (Elt F)) (h : ∀ x, (pf 0 x : BitVec 32).toNat < 1000000) : ok0 (F := F) pf :=
  fun i => ⟨fun a =>
    match a with
    | ⟨0, _⟩ => Nat.le_trans (Nat.le_of_eq (Nat.mul_one _)) (Nat.succ_le_of_lt (h _))
    | ⟨1, _⟩ => Nat.le_refl _
    | ⟨2, _⟩ => Nat.le_refl _, .inl rfl⟩

/-- The same for the second gather. -/
theorem ok1_of_lt (pf : pre1.Contents (Elt F)) (h : ∀ x, (pf 0 x : BitVec 32).toNat < 1000000) : ok1 (F := F) pf :=
  fun i => ⟨fun a =>
    match a with
    | ⟨0, _⟩ => Nat.le_trans (Nat.le_of_eq (Nat.mul_one _)) (Nat.succ_le_of_lt (h _))
    | ⟨1, _⟩ => Nat.le_refl _
    | ⟨2, _⟩ => Nat.le_refl _, .inl rfl⟩

end Cert.Kernel.Hand

end
-- ==== Proof.CloseB.lean ====
/-
  The run's hypotheses discharged. The two index vectors at the gathers' entries are, word by word, row numbers
  below 1000000, so both gathers' side conditions hold at them. What the three launches leave is defined launch by
  launch, each from the contents the one before it left. With that the program's run is unconditional: it
  terminates, nothing faults, the product's result array ends at what the last launch leaves and every argument
  array ends as launched.
-/
import proofs.«429174_j50319836840675_1_alg».proof.Proof.RunB
import proofs.«429174_j50319836840675_1_alg».proof.Proof.TablesB

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat Cfg Window)

section Close

variable {F : FTy → Type} [FloatOps F]
variable (m : (ℓ : Loc nD τ sig) → Buf (Elt F) ℓ) (ρ : Dev nD → PrngReg)

/-- The argument arrays of core `c`, at their literal types. -/
abbrev obsA (c : Dev nD) : S8192.Idx → BitVec 32 := m ((c.tc : Thread nD τ).loc main_arg0)
abbrev actA (c : Dev nD) : S8192.Idx → BitVec 32 := m ((c.tc : Thread nD τ).loc main_arg1)
abbrev fobsA (c : Dev nD) : S8192.Idx → BitVec 32 := m ((c.tc : Thread nD τ).loc main_arg2)
abbrev factA (c : Dev nD) : S8192.Idx → BitVec 32 := m ((c.tc : Thread nD τ).loc main_arg3)

/-- The two index vectors, read off the contents at the first gather's entry (there is one device). -/
def tbl0 : pre0.Contents (Elt F) := fun j => V9 m (0 : Dev nD) (pre0.ref j)
def tbl1 : pre1.Contents (Elt F) := fun j => V9 m (0 : Dev nD) (pre1.ref j)

theorem tbl0_word (x : S8192.Idx) : (tbl0 m 0 x : BitVec 32) = rowWord (obsA m 0 x) (actA m 0 x) := by
  show (V9 m 0 (Proc.devRef .tc main_v4) : (⟨S8192, .i32⟩ : BufTy).Contents (Elt F)) x = _
  rw [v4_at_entry]; rfl
theorem tbl1_word (x : S8192.Idx) : (tbl1 m 0 x : BitVec 32) = rowWord (fobsA m 0 x) (factA m 0 x) := by
  show (V9 m 0 (Proc.devRef .tc main_v9) : (⟨S8192, .i32⟩ : BufTy).Contents (Elt F)) x = _
  rw [v9_at_entry]; rfl

/-- Both meet their gather's side condition. -/
def adm0 : (pcfg0 (F := F)).Adm := ⟨tbl0 m, ok0_of_lt (tbl0 m) fun x => lt_of_eq_of_lt (congrArg BitVec.toNat (tbl0_word m x)) (rowWord_lt _ _)⟩
def adm1 : (pcfg1 (F := F)).Adm := ⟨tbl1 m, ok1_of_lt (tbl1 m) fun x => lt_of_eq_of_lt (congrArg BitVec.toNat (tbl1_word m x)) (rowWord_lt _ _)⟩

/-! ## What each launch leaves, in the order the launches run -/

/-- The first gather's result array after its last point. -/
def o10 (c : Dev nD) : Buf (Elt F) ((c : Thread nD τ).loc main_v11) := (dat0 (adm0 m) (E9 m) c).arrAt 1 (cfg0 (adm0 m)).N
/-- The contents the regions leave, known up to the first gather. -/
def outsA : Outs (F := F) := fun _ r c => if h : r = main_v11 then h ▸ o10 m c else V0 m c r
/-- The second gather's result array after its last point. -/
def o12 (c : Dev nD) : Buf (Elt F) ((c : Thread nD τ).loc main_v14) := (dat1 (adm1 m) (E11 m (outsA m)) c).arrAt 1 (cfg1 (adm1 m)).N
/-- … known up to the second gather. -/
def outsB : Outs (F := F) := fun _ r c => if h : r = main_v11 then h ▸ o10 m c else if h : r = main_v14 then h ▸ o12 m c else V0 m c r
/-- The product's result array after its last point. -/
def o14 (c : Dev nD) : Buf (Elt F) ((c : Thread nD τ).loc main_v16) := (dat2 (E13 m (outsB m)) c).arrAt 2 cfg2.N
/-- … and of all three launches. -/
def outsC : Outs (F := F) := fun _ r c =>
  if h : r = main_v11 then h ▸ o10 m c else if h : r = main_v14 then h ▸ o12 m c else if h : r = main_v16 then h ▸ o14 m c else V0 m c r

theorem outsA_v11 (n : ℕ) (c : Dev nD) : outsA m n main_v11 c = o10 m c := by unfold outsA; rw [dif_pos rfl]
theorem outsB_v11 (n : ℕ) (c : Dev nD) : outsB m n main_v11 c = o10 m c := by unfold outsB; rw [dif_pos rfl]
theorem outsC_v11 (n : ℕ) (c : Dev nD) : outsC m n main_v11 c = o10 m c := by unfold outsC; rw [dif_pos rfl]
theorem outsB_v14 (n : ℕ) (c : Dev nD) : outsB m n main_v14 c = o12 m c := by
  unfold outsB; rw [dif_neg (by decide), dif_pos rfl]
theorem outsC_v14 (n : ℕ) (c : Dev nD) : outsC m n main_v14 c = o12 m c := by
  unfold outsC; rw [dif_neg (by decide), dif_pos rfl]
theorem outsC_v16 (n : ℕ) (c : Dev nD) : outsC m n main_v16 c = o14 m c := by
  unfold outsC; rw [dif_neg (by decide), dif_neg (by decide), dif_pos rfl]

/-- The second gather's entry contents read only what the first gather left. -/
theorem E11_C (c : Dev nD) : V11 m (outsC m) c = V11 m (outsA m) c := by
  show StableHlo.after hostOps1 (Function.update (V9 m c) (Proc.devRef .tc main_v11) (outsC m 10 main_v11 c))
    = StableHlo.after hostOps1 (Function.update (V9 m c) (Proc.devRef .tc main_v11) (outsA m 10 main_v11 c))
  rw [outsC_v11, outsA_v11]
theorem E11_B (c : Dev nD) : V11 m (outsB m) c = V11 m (outsA m) c := by
  show StableHlo.after hostOps1 (Function.update (V9 m c) (Proc.devRef .tc main_v11) (outsB m 10 main_v11 c))
    = StableHlo.after hostOps1 (Function.update (V9 m c) (Proc.devRef .tc main_v11) (outsA m 10 main_v11 c))
  rw [outsB_v11, outsA_v11]
/-- The product's entry contents read only what the two gathers left. -/
theorem E13_C (c : Dev nD) : V13 m (outsC m) c = V13 m (outsB m) c := by
  show StableHlo.after hostOps2 (Function.update (V11 m (outsC m) c) (Proc.devRef .tc main_v14) (outsC m 12 main_v14 c))
    = StableHlo.after hostOps2 (Function.update (V11 m (outsB m) c) (Proc.devRef .tc main_v14) (outsB m 12 main_v14 c))
  rw [E11_C, E11_B, outsC_v14, outsB_v14]

theorem hpf0 (c : Dev nD) (k : Fin pre0.K) : E9 m c (pre0.ref k) = (adm0 m).1 k := by
  obtain rfl : c = 0 := Subsingleton.elim _ _; rfl
theorem hpf1 (c : Dev nD) (k : Fin pre1.K) : E11 m (outsC m) c (pre1.ref k) = (adm1 m).1 k := by
  obtain rfl : c = 0 := Subsingleton.elim _ _
  obtain rfl : k = 0 := Subsingleton.elim _ _
  exact (V11_of m (outsC m) 0 main_v9 (by decide)).trans (V10_of m (outsC m) 0 main_v9 (by decide))
theorem ho10 (c : Dev nD) : outsC m 10 main_v11 c = (dat0 (adm0 m) (E9 m) c).arrAt 1 (cfg0 (adm0 m)).N := outsC_v11 m 10 c
theorem ho12 (c : Dev nD) : outsC m 12 main_v14 c = (dat1 (adm1 m) (E11 m (outsC m)) c).arrAt 1 (cfg1 (adm1 m)).N := by
  rw [show E11 m (outsC m) = E11 m (outsA m) from funext fun c => funext fun b => congrFun (E11_C m c) (Proc.devRef .tc b)]
  exact outsC_v14 m 12 c
theorem ho14 (c : Dev nD) : outsC m 14 main_v16 c = (dat2 (E13 m (outsC m)) c).arrAt 2 cfg2.N := by
  rw [show E13 m (outsC m) = E13 m (outsB m) from funext fun c => funext fun b => congrFun (E13_C m c) (Proc.devRef .tc b)]
  exact outsC_v16 m 14 c

/-- THE RUN, unconditional: the result array at what the last launch leaves, the arguments as launched. -/
theorem run_closed : θ_run defs (onTc (τ := τ) (main (F := F))) ⟨m, fun _ => 0, ρ⟩ (fun r => ∀ c : Dev nD,
      r.2.mem ((c.tc : Thread nD τ).loc main_v16) = outsC m 14 main_v16 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_value m ρ (adm0 m) (adm1 m) (outsC m) (hpf0 m) (hpf1 m) (ho10 m) (ho12 m) (ho14 m)

/-- THE FRAME: every weakly fair execution terminates, nothing faulting, every argument array as launched. -/
theorem frame_closed : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_closed m ρ)

end Close

end Cert.Kernel.Hand

end
-- ==== Proof.Gather0.lean ====
/-
  The first row-gather launch, at any admissible contents of its index table and any buffer contents at entry.
  Grid point t stages ONE row of the table array: the block of the [1000000, 1, 64] array whose leading
  index is the t-th word of the prefetched index vector, and the body copies that row (the change of float
  format is all it computes) into block t of the [8192, 1, 64] result. Nothing is carried between points.
-/
import proofs.«429174_j50319836840675_1_alg».proof.Proof.Gen.KernelIdeal.Launch
import proofs.«429174_j50319836840675_1_alg».proof.Proof.Gen.KernelIdeal.Skeleton
import proofs.«429174_j50319836840675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (a : (pcfg0 (F := F)).Adm)
variable (V : (c : Dev nD) → (b : Ref sig .tc) → Buf (Elt F) ((c : Thread nD τ).loc b))

/-- The staging memref each window is on at point `t`. -/
abbrev st0_0 (t : Fin (cfg0 a).N) := ((cfg0 a).win 0).stage ((cfg0 a).slots t 0)
abbrev st0_1 (t : Fin (cfg0 a).N) := ((cfg0 a).win 1).stage ((cfg0 a).slots t 1)

/-- The body as the pipeline calls it at point `t`. -/
abbrev bodyAt0 (t : Fin (cfg0 a).N) : Prog (TpuEff nD τ sig (Elt F) Λ₀ .tc) PUnit :=
  cc0__gather_kernel (grid0.coords t) (Memref.whole main_v4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

/-- Window `w`'s block at point `t`, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The input window's staging buffer holds its block at every point, fetched there or not. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 a V c 0 t) (t : Fin (cfg0 a).N) (d) : dat.before 0 t d = iblk0 a V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x1x64 := Rect.unit (s := S1x1x64) ![0, 0, 0] S1x1x64.size inb_S1x1x64_S1x1x64_0_0_0

/-- What the body leaves in the result window's buffer: the one store, of the row just loaded. -/
def out0_1 (x0 : Vec F S1x1x64 .f32) : Vec F S1x1x64 .bf16 :=
  View.canon [⟨r0_0, k0_pay1 (View.ld x0 r0_0)⟩]

theorem cover0_1 (p0 : Vec F S1x1x64 .bf16) (y : S1x1x64.Idx) :
    ∃ pc ∈ ([⟨r0_0, p0⟩] : List (View.Piece (Elt F) S1x1x64 .bf16)), y ∈ pc.1.set :=
  View.cover_of_tiled [⟨r0_0, p0⟩] S1x1x64.size (by rfl) y

set_option maxHeartbeats 1000000 in
/-- The body on whole staging memrefs: the row buffer read and left as it was, the result buffer overwritten. -/
theorem sound_kernel0 (c : Dev nD) (E : Set ℕ) (i : grid0.Coords) (arg1 : Memref sig .tc .smem S8192 .i32) (harg1 : arg1.IsWhole)
    (arg2 : Memref sig .tc .vmem S1x1x64 .f32) (harg2 : arg2.IsWhole) (arg3 : Memref sig .tc .vmem S1x1x64 .bf16) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The tables as the invariant carries them: the index vector's buffer, whole, at the contents the region runs at. -/
abbrev tabs0 (c : Dev nD) : sProp 𝕄 :=
  Pipeline.prefHeld (Ix := Unit) (Name := ℕ) (U := UR sig nD τ) (Lvl := ℕ) pre0 c (fun _ => fullShare) a.1

/-- The proof data: the arrays as the region finds them; after the body at point `t` the row buffer still holds
    its block and the result buffer the copied row; the invariant is the scoped rest, the generator register and
    the index table, none of which the body touches; nothing owed. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => out0_1 (iblk0 a V c 0 t)
  Φ _ := iprop(Pipeline.ΦA spec0 c ∗ tabs0 a c)
  q _ := fullShare
  owed _ := 0

theorem A_eq0 (c : Dev nD) (w : Fin (cfg0 a).W) : (dat0 a V c).A w = V c (Pipeline.arrRef spec0 w) := by
  dsimp only [dat0]

theorem after0_0 (c : Dev nD) (t : Fin (cfg0 a).N) : (dat0 a V c).after 0 t = iblk0 a V c 0 t := by dsimp only [dat0]; try rfl
theorem after0_1 (c : Dev nD) (t : Fin (cfg0 a).N) : (dat0 a V c).after 1 t = out0_1 (iblk0 a V c 0 t) := by dsimp only [dat0]; try rfl

theorem before0_0 (c : Dev nD) (t : Fin (cfg0 a).N) (d) : (dat0 a V c).before 0 t d = iblk0 a V c 0 t :=
  before0_0_of a V (dat0 a V c) (A_eq0 a V c 0) (after0_0 a V c) t d

def bodyPre0 (c : Dev nD) (t : Fin (cfg0 a).N) : sProp 𝕄 :=
  iprop((dat0 a V c).Φ t.castSucc ∗ (dat0 a V c).owesAt () t.castSucc
    ∗ (∃ d, owns (c : Thread nD τ) (st0_0 a t) fullShare ((dat0 a V c).before 0 t d))
    ∗ (∃ d, owns (c : Thread nD τ) (st0_1 a t) fullShare ((dat0 a V c).before 1 t d)))

def bodyPost0 (c : Dev nD) (t : Fin (cfg0 a).N) : sProp 𝕄 :=
  iprop((dat0 a V c).Φ t.succ ∗ (dat0 a V c).owesAt () t.succ
    ∗ owns (c : Thread nD τ) (st0_0 a t) fullShare ((dat0 a V c).after 0 t)
    ∗ owns (c : Thread nD τ) (st0_1 a t) fullShare ((dat0 a V c).after 1 t))

/-- The body at any point: the row buffer holds its block, the invariant and the core's dues pass through unread. -/
theorem sound_body0 (c : Dev nD) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  simp only [before0_0]
  rw [show (dat0 a V c).Φ t.succ = (dat0 a V c).Φ t.castSucc from rfl,
    show (dat0 a V c).owesAt () t.succ = (dat0 a V c).owesAt () t.castSucc from rfl,
    after0_0, after0_1]
  iintro ⟨HΦ, Ho, ⟨%d0, H0⟩, ⟨%d1, H1⟩⟩
  iapply (sound_kernel0 c Set.univ _ _ _ _ _ _ _ (iblk0 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) a V c) (defs₀ (F := F)) Variants.none () Set.univ := fun t => by
  rw [bigSep_W0, bigSep_W0]
  exact sound_body0 a V c t

end Region0

end Cert.KernelIdeal.Hand

end
-- ==== Proof.Gather1.lean ====
/-
  The second row-gather launch, at any admissible contents of its index table and any buffer contents at entry.
  Grid point t stages ONE row of the table array: the block of the [1000000, 1, 64] array whose leading
  index is the t-th word of the prefetched index vector, and the body copies that row (the change of float
  format is all it computes) into block t of the [8192, 1, 64] result. Nothing is carried between points.
-/
import proofs.«429174_j50319836840675_1_alg».proof.Proof.Gen.KernelIdeal.Launch
import proofs.«429174_j50319836840675_1_alg».proof.Proof.Gen.KernelIdeal.Skeleton
import proofs.«429174_j50319836840675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (a : (pcfg1 (F := F)).Adm)
variable (V : (c : Dev nD) → (b : Ref sig .tc) → Buf (Elt F) ((c : Thread nD τ).loc b))

/-- The staging memref each window is on at point `t`. -/
abbrev st1_0 (t : Fin (cfg1 a).N) := ((cfg1 a).win 0).stage ((cfg1 a).slots t 0)
abbrev st1_1 (t : Fin (cfg1 a).N) := ((cfg1 a).win 1).stage ((cfg1 a).slots t 1)

/-- The body as the pipeline calls it at point `t`. -/
abbrev bodyAt1 (t : Fin (cfg1 a).N) : Prog (TpuEff nD τ sig (Elt F) Λ₀ .tc) PUnit :=
  cc1__gather_kernel (grid1.coords t) (Memref.whole main_v9) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1))

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The input window's staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 a V c 0 t) (t : Fin (cfg1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x1x64 := Rect.unit (s := S1x1x64) ![0, 0, 0] S1x1x64.size inb_S1x1x64_S1x1x64_0_0_0

/-- What the body leaves in the result window's buffer: the one store, of the row just loaded. -/
def out1_1 (x0 : Vec F S1x1x64 .f32) : Vec F S1x1x64 .bf16 :=
  View.canon [⟨r1_0, k1_pay1 (View.ld x0 r1_0)⟩]

theorem cover1_1 (p0 : Vec F S1x1x64 .bf16) (y : S1x1x64.Idx) :
    ∃ pc ∈ ([⟨r1_0, p0⟩] : List (View.Piece (Elt F) S1x1x64 .bf16)), y ∈ pc.1.set :=
  View.cover_of_tiled [⟨r1_0, p0⟩] S1x1x64.size (by rfl) y

set_option maxHeartbeats 1000000 in
/-- The body on whole staging memrefs: the row buffer read and left as it was, the result buffer overwritten. -/
theorem sound_kernel1 (c : Dev nD) (E : Set ℕ) (i : grid1.Coords) (arg1 : Memref sig .tc .smem S8192 .i32) (harg1 : arg1.IsWhole)
    (arg2 : Memref sig .tc .vmem S1x1x64 .f32) (harg2 : arg2.IsWhole) (arg3 : Memref sig .tc .vmem S1x1x64 .bf16) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The tables as the invariant carries them: the index vector's buffer, whole, at the contents the region runs at. -/
abbrev tabs1 (c : Dev nD) : sProp 𝕄 :=
  Pipeline.prefHeld (Ix := Unit) (Name := ℕ) (U := UR sig nD τ) (Lvl := ℕ) pre1 c (fun _ => fullShare) a.1

/-- The proof data: the arrays as the region finds them; after the body at point `t` the row buffer still holds
    its block and the result buffer the copied row; the invariant is the scoped rest, the generator register and
    the index table, none of which the body touches; nothing owed. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => out1_1 (iblk1 a V c 0 t)
  Φ _ := iprop(Pipeline.ΦA spec1 c ∗ tabs1 a c)
  q _ := fullShare
  owed _ := 0

theorem A_eq1 (c : Dev nD) (w : Fin (cfg1 a).W) : (dat1 a V c).A w = V c (Pipeline.arrRef spec1 w) := by
  dsimp only [dat1]

theorem after1_0 (c : Dev nD) (t : Fin (cfg1 a).N) : (dat1 a V c).after 0 t = iblk1 a V c 0 t := by dsimp only [dat1]; try rfl
theorem after1_1 (c : Dev nD) (t : Fin (cfg1 a).N) : (dat1 a V c).after 1 t = out1_1 (iblk1 a V c 0 t) := by dsimp only [dat1]; try rfl

theorem before1_0 (c : Dev nD) (t : Fin (cfg1 a).N) (d) : (dat1 a V c).before 0 t d = iblk1 a V c 0 t :=
  before1_0_of a V (dat1 a V c) (A_eq1 a V c 0) (after1_0 a V c) t d

def bodyPre1 (c : Dev nD) (t : Fin (cfg1 a).N) : sProp 𝕄 :=
  iprop((dat1 a V c).Φ t.castSucc ∗ (dat1 a V c).owesAt () t.castSucc
    ∗ (∃ d, owns (c : Thread nD τ) (st1_0 a t) fullShare ((dat1 a V c).before 0 t d))
    ∗ (∃ d, owns (c : Thread nD τ) (st1_1 a t) fullShare ((dat1 a V c).before 1 t d)))

def bodyPost1 (c : Dev nD) (t : Fin (cfg1 a).N) : sProp 𝕄 :=
  iprop((dat1 a V c).Φ t.succ ∗ (dat1 a V c).owesAt () t.succ
    ∗ owns (c : Thread nD τ) (st1_0 a t) fullShare ((dat1 a V c).after 0 t)
    ∗ owns (c : Thread nD τ) (st1_1 a t) fullShare ((dat1 a V c).after 1 t))

/-- The body at any point: the row buffer holds its block, the invariant and the core's dues pass through unread. -/
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0]
  rw [show (dat1 a V c).Φ t.succ = (dat1 a V c).Φ t.castSucc from rfl,
    show (dat1 a V c).owesAt () t.succ = (dat1 a V c).owesAt () t.castSucc from rfl,
    after1_0, after1_1]
  iintro ⟨HΦ, Ho, ⟨%d0, H0⟩, ⟨%d1, H1⟩⟩
  iapply (sound_kernel1 c Set.univ _ _ _ _ _ _ _ (iblk1 a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) a V c) (defs₀ (F := F)) Variants.none () Set.univ := fun t => by
  rw [bigSep_W1, bigSep_W1]
  exact sound_body1 a V c t

end Region1

end Cert.KernelIdeal.Hand

end
-- ==== Proof.Matmul2.lean ====
/-
  The matrix-product launch at any buffer contents at entry. The grid is 8 × 8; point (p, q) stages rows
  1024p … 1024p+1023 of the left [8192, 64] array and rows 1024q … 1024q+1023 of the right one, and the body stores
  into block (p, q) of the [8192, 8192] result the product of the left block with the transpose of the right
  block, accumulated from zero. Nothing is carried between points.
-/
import proofs.«429174_j50319836840675_1_alg».proof.Proof.Gen.KernelIdeal.Launch
import proofs.«429174_j50319836840675_1_alg».proof.Proof.Gen.KernelIdeal.Skeleton
import proofs.«429174_j50319836840675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_in : Rect S1024x64 := Rect.unit (s := S1024x64) ![0, 0] S1024x64.size inb_S1024x64_S1024x64_0_0
abbrev r2_out : Rect S1024x1024 := Rect.unit (s := S1024x1024) ![0, 0] S1024x1024.size inb_S1024x1024_S1024x1024_0_0

/-- What the body leaves in the result window's buffer: its one store, of the product of the two loaded blocks. -/
def out2_2 (x0 x1 : Vec F S1024x64 .bf16) : Vec F S1024x1024 .f32 :=
  View.canon [⟨r2_out, k2_pay1 (View.ld x0 r2_in) (View.ld x1 r2_in)⟩]

theorem cover2_2 (p0 : Vec F S1024x1024 .f32) (y : S1024x1024.Idx) :
    ∃ pc ∈ ([⟨r2_out, p0⟩] : List (View.Piece (Elt F) S1024x1024 .f32)), y ∈ pc.1.set :=
  View.cover_of_tiled [⟨r2_out, p0⟩] S1024x1024.size (by rfl) y

set_option maxHeartbeats 1000000 in
/-- The body on whole staging memrefs: both operand buffers read and left as they were, the result buffer overwritten. -/
theorem sound_kernel2 (c : Dev nD) (E : Set ℕ) (i : grid2.Coords)
    (arg2 : Memref sig .tc .vmem S1024x64 .bf16) (harg2 : arg2.IsWhole) (arg3 : Memref sig .tc .vmem S1024x64 .bf16) (harg3 : arg3.IsWhole)
    (arg4 : Memref sig .tc .vmem S1024x1024 .f32) (harg4 : arg4.IsWhole)
    (x0 x1 : Vec F S1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data: the arrays as the region finds them; after the body at point `t` each operand buffer still
    holds its block and the result buffer the product of the two; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operand buffers hold their blocks, the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Run.lean ====
/-
  The whole program: fourteen items in order — nine stretches of host operations that compute the two index
  vectors (a clamp of each observation and action, ten times the one plus the other) and view the first table
  as [1000000, 1, 64]; the first row gather; a stretch that flattens its result to [8192, 64] and views the
  second table; the second row gather; a stretch that flattens its result; the matrix product. Between two
  items every unscoped buffer is held at a named valuation; each launch takes its windows' arrays (and a row
  gather its index vector) out of that valuation at entry and puts them back at exit, the result array at what
  its write-backs leave. The run ends with the product's result array at what the last launch leaves and every
  argument array as launched.
-/
import proofs.«429174_j50319836840675_1_alg».proof.Proof.Gen.KernelIdeal.Launch
import proofs.«429174_j50319836840675_1_alg».proof.Proof.Gen.KernelIdeal.Skeleton
import proofs.«429174_j50319836840675_1_alg».proof.Proof.Gen.KernelIdeal.Points
import proofs.«429174_j50319836840675_1_alg».proof.Proof.Gather0
import proofs.«429174_j50319836840675_1_alg».proof.Proof.Gather1
import proofs.«429174_j50319836840675_1_alg».proof.Proof.Matmul2
import proofs.«429174_j50319836840675_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section Run

variable (m : (ℓ : Loc nD τ sig) → Buf (Elt F) ℓ) (ρ : Dev nD → PrngReg)
variable (a0 : (pcfg0 (F := F)).Adm) (a1 : (pcfg1 (F := F)).Adm) (outs : Outs (F := F))

/-- The index vectors' contents the two gathers run at; the product has no table. -/
abbrev adm : (p : Fin 3) → (pcfgs (F := F) p).Adm :=
  fun | ⟨0, _⟩ => a0 | ⟨1, _⟩ => a1 | ⟨2, _⟩ => cfg2.toPCfg_adm | ⟨_ + 3, h⟩ => absurd h (Nat.not_lt.2 (Nat.le_add_left _ _))

/-- The buffers' contents at each launch's entry and exit, read at the TensorCore's references. -/
abbrev E9 (c : Dev nD) (b : Ref sig .tc) : Buf (Elt F) ((c : Thread nD τ).loc b) := V9 m c b
abbrev E10 (c : Dev nD) (b : Ref sig .tc) : Buf (Elt F) ((c : Thread nD τ).loc b) := V10 m outs c b
abbrev E11 (c : Dev nD) (b : Ref sig .tc) : Buf (Elt F) ((c : Thread nD τ).loc b) := V11 m outs c b
abbrev E12 (c : Dev nD) (b : Ref sig .tc) : Buf (Elt F) ((c : Thread nD τ).loc b) := V12 m outs c b
abbrev E13 (c : Dev nD) (b : Ref sig .tc) : Buf (Elt F) ((c : Thread nD τ).loc b) := V13 m outs c b
abbrev E14 (c : Dev nD) (b : Ref sig .tc) : Buf (Elt F) ((c : Thread nD τ).loc b) := V14 m outs c b

/-- Every launch's proof data, each at its entry contents. -/
def pdats : (p : Fin 3) → (c : Dev nD) → Dat τ (Elt F) Unit ℕ (UR sig nD τ) ℕ (Pipeline.pin (pcfgs (F := F)) (adm a0 a1) p) c
  | ⟨0, _⟩ => fun c => dat0 a0 (E9 m) c
  | ⟨1, _⟩ => fun c => dat1 a1 (E11 m outs) c
  | ⟨2, _⟩ => fun c => dat2 (E13 m outs) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev ER : Fin 4 → Dev nD → sProp 𝕄 := fun _ => R

-- the index vectors at entry are the admissible contents; each result array ends at what its launch's write-backs leave
variable (hpf0 : ∀ c k, E9 m c (pre0.ref k) = a0.1 k) (hpf1 : ∀ c k, E11 m outs c (pre1.ref k) = a1.1 k)
variable (ho10 : ∀ c, outs 10 main_v11 c = (dat0 a0 (E9 m) c).arrAt 1 (cfg0 a0).N)
variable (ho12 : ∀ c, outs 12 main_v14 c = (dat1 a1 (E11 m outs) c).arrAt 1 (cfg1 a1).N)
variable (ho14 : ∀ c, outs 14 main_v16 c = (dat2 (E13 m outs) c).arrAt 2 cfg2.N)

theorem E10_v11 (c : Dev nD) : E10 m outs c main_v11 = outs 10 main_v11 c := by
  show Function.update (V9 m c) _ _ _ = _; exact Function.update_self ..
theorem E12_v14 (c : Dev nD) : E12 m outs c main_v14 = outs 12 main_v14 c := by
  show Function.update (V11 m outs c) _ _ _ = _; exact Function.update_self ..
theorem E14_v16 (c : Dev nD) : E14 m outs c main_v16 = outs 14 main_v16 c := by
  show Function.update (V13 m outs c) _ _ _ = _; exact Function.update_self ..

include ho10 in
theorem hF0 (c : Dev nD) (w : Fin (cfg0 a0).W) : (dat0 a0 (E9 m) c).arrAt w (cfg0 a0).N = E10 m outs c (Pipeline.arrRef spec0 w) :=
  match w with
  | ⟨0, _⟩ => ((dat0 a0 (E9 m) c).arrAt_in 0 rfl _).trans ((A_eq0 a0 (E9 m) c 0).trans (V10_of m outs c main_v10 (by decide)).symm)
  | ⟨1, _⟩ => ((E10_v11 m outs c).trans (ho10 c)).symm
theorem hrest0 (c : Dev nD) : ∀ b, b ∉ Finset.univ.image (Pipeline.arrRef spec0) → E10 m outs c b = E9 m c b :=
  fun b hb => V10_of m outs c b fun h => hb (Finset.mem_image.mpr ⟨1, Finset.mem_univ _, (List.mem_singleton.mp h).symm⟩)

include ho12 in
theorem hF1 (c : Dev nD) (w : Fin (cfg1 a1).W) : (dat1 a1 (E11 m outs) c).arrAt w (cfg1 a1).N = E12 m outs c (Pipeline.arrRef spec1 w) :=
  match w with
  | ⟨0, _⟩ => ((dat1 a1 (E11 m outs) c).arrAt_in 0 rfl _).trans ((A_eq1 a1 (E11 m outs) c 0).trans (V12_of m outs c main_v13 (by decide)).symm)
  | ⟨1, _⟩ => ((E12_v14 m outs c).trans (ho12 c)).symm
theorem hrest1 (c : Dev nD) : ∀ b, b ∉ Finset.univ.image (Pipeline.arrRef spec1) → E12 m outs c b = E11 m outs c b :=
  fun b hb => V12_of m outs c b fun h => hb (Finset.mem_image.mpr ⟨1, Finset.mem_univ _, (List.mem_singleton.mp h).symm⟩)

include ho14 in
theorem hF2 (c : Dev nD) (w : Fin cfg2.W) : (dat2 (E13 m outs) c).arrAt w cfg2.N = E14 m outs c (Pipeline.arrRef spec2 w) :=
  match w with
  | ⟨0, _⟩ => ((dat2 (E13 m outs) c).arrAt_in 0 rfl _).trans ((A_eq2 (E13 m outs) c 0).trans (V14_of m outs c main_v12 (by decide)).symm)
  | ⟨1, _⟩ => ((dat2 (E13 m outs) c).arrAt_in 1 rfl _).trans ((A_eq2 (E13 m outs) c 1).trans (V14_of m outs c main_v15 (by decide)).symm)
  | ⟨2, _⟩ => ((E14_v16 m outs c).trans (ho14 c)).symm
theorem hrest2 (c : Dev nD) : ∀ b, b ∉ Finset.univ.image (Pipeline.arrRef spec2) → E14 m outs c b = E13 m outs c b :=
  fun b hb => V14_of m outs c b fun h => hb (Finset.mem_image.mpr ⟨2, Finset.mem_univ _, (List.mem_singleton.mp h).symm⟩)

include hpf0 ho10 in
set_option backward.isDefEq.respectTransparency.types false in
/-- Row gather 0 as an item: entered from every unscoped buffer at its entry valuation, left at the exit valuation.
    Its arrays AND its index vector are taken out of the unscoped buffers at entry and put back at exit; the index
    vector and the generator register go into the invariant and come back; nothing owed; no semaphore of its own. -/
def reg0 : Pipeline.RegionSeg (pcfgs (F := F)) (adm a0 a1) (pdats m a0 a1 outs) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 a0 (E9 m) c).loose
  hwaits := Pipeline.hwaits_of_owed_zero (pcfgs (F := F)) (adm a0 a1) (pdats m a0 a1 outs) () L lv 0 fun _ _ => rfl
  pre c := iprop(StableHlo.held (c : Thread nD τ) (Pipeline.ucRefs τ sig) (V9 m c) ∗ R c)
  post c := iprop(StableHlo.held (c : Thread nD τ) (Pipeline.ucRefs τ sig) (V10 m outs c) ∗ R c)
  X c := iprop(∃ r, prngReg c r)
  Y c := iprop((∃ r, prngReg c r) ∗ tabs0 a0 c)
  Z c := Pipeline.unscopedRestP (Ix := Unit) (Name := ℕ) (U := UR sig nD τ) (Lvl := ℕ) pre0 spec0 c (E9 m c)
  hentry c := by
    rw [Pipeline.ownSems0_none]
    have hsplit : (unscopedBufs c (E9 m c) : sProp 𝕄) ⊢ iprop((pdats m a0 a1 outs 0 c).arrays ((pdats m a0 a1 outs 0 c).arrAt · 0) ∗ Pipeline.unscopedRest spec0 c (E9 m c)) := Pipeline.arrays_of_unscopedBufs (p := 0) (pcfgs (F := F)) (adm a0 a1) (pdats m a0 a1 outs) (launch0 (F := F)).win (launch0 (F := F)).arr_whole c
      ((pdats m a0 a1 outs 0 c).share_full fun _ => rfl) (E9 m c) fun _ => rfl
    rw [Pipeline.unscopedBufs_held, Pipeline.unscopedRest_split preFacts0 c (E9 m c),
      show (fun k => E9 m c (pre0.ref k)) = a0.1 from funext (hpf0 c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 a1 outs 0 c).Φ 0 = iprop(Pipeline.ΦA spec0 c ∗ tabs0 a0 c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m a0 a1 outs 0 c).Φ (Fin.last _) = iprop(Pipeline.ΦA spec0 c ∗ tabs0 a0 c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m a0 a1 outs 0 c).arrays ((pdats m a0 a1 outs 0 c).arrAt · (cfg0 a0).N) ∗ Pipeline.unscopedRest spec0 c (E9 m c)) ⊢ (unscopedBufs c (E10 m outs c) : sProp 𝕄) := Pipeline.unscopedBufs_of_arrays (p := 0) (pcfgs (F := F)) (adm a0 a1) (Ix := Unit) (Name := ℕ) (U := UR sig nD τ) (Lvl := ℕ)
      (launch0 (F := F)).win (launch0 (F := F)).arr_whole c (pdats m a0 a1 outs) ((pdats m a0 a1 outs 0 c).share_full fun _ => rfl)
      (E9 m c) (E10 m outs c) ((pdats m a0 a1 outs 0 c).arrAt · (cfg0 a0).N) (hF0 m a0 outs ho10 c) (hrest0 m outs c)
    rw [Pipeline.unscopedBufs_held, Pipeline.unscopedRest_split preFacts0 c (E9 m c),
      show (fun k => E9 m c (pre0.ref k)) = a0.1 from funext (hpf0 c)] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

include hpf1 ho12 in
set_option backward.isDefEq.respectTransparency.types false in
/-- Row gather 1 as an item: entered from every unscoped buffer at its entry valuation, left at the exit valuation.
    Its arrays AND its index vector are taken out of the unscoped buffers at entry and put back at exit; the index
    vector and the generator register go into the invariant and come back; nothing owed; no semaphore of its own. -/
def reg1 : Pipeline.RegionSeg (pcfgs (F := F)) (adm a0 a1) (pdats m a0 a1 outs) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 a1 (E11 m outs) c).loose
  hwaits := Pipeline.hwaits_of_owed_zero (pcfgs (F := F)) (adm a0 a1) (pdats m a0 a1 outs) () L lv 1 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop((∃ r, prngReg c r) ∗ tabs1 a1 c)
  Z c := Pipeline.unscopedRestP (Ix := Unit) (Name := ℕ) (U := UR sig nD τ) (Lvl := ℕ) pre1 spec1 c (E11 m outs c)
  hentry c := by
    rw [Pipeline.ownSems0_none]
    have hsplit : (unscopedBufs c (E11 m outs c) : sProp 𝕄) ⊢ iprop((pdats m a0 a1 outs 1 c).arrays ((pdats m a0 a1 outs 1 c).arrAt · 0) ∗ Pipeline.unscopedRest spec1 c (E11 m outs c)) := Pipeline.arrays_of_unscopedBufs (p := 1) (pcfgs (F := F)) (adm a0 a1) (pdats m a0 a1 outs) (launch1 (F := F)).win (launch1 (F := F)).arr_whole c
      ((pdats m a0 a1 outs 1 c).share_full fun _ => rfl) (E11 m outs c) fun _ => rfl
    rw [Pipeline.unscopedBufs_held, Pipeline.unscopedRest_split preFacts1 c (E11 m outs c),
      show (fun k => E11 m outs c (pre1.ref k)) = a1.1 from funext (hpf1 c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 a1 outs 1 c).Φ 0 = iprop(Pipeline.ΦA spec1 c ∗ tabs1 a1 c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m a0 a1 outs 1 c).Φ (Fin.last _) = iprop(Pipeline.ΦA spec1 c ∗ tabs1 a1 c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m a0 a1 outs 1 c).arrays ((pdats m a0 a1 outs 1 c).arrAt · (cfg1 a1).N) ∗ Pipeline.unscopedRest spec1 c (E11 m outs c)) ⊢ (unscopedBufs c (E12 m outs c) : sProp 𝕄) := Pipeline.unscopedBufs_of_arrays (p := 1) (pcfgs (F := F)) (adm a0 a1) (Ix := Unit) (Name := ℕ) (U := UR sig nD τ) (Lvl := ℕ)
      (launch1 (F := F)).win (launch1 (F := F)).arr_whole c (pdats m a0 a1 outs) ((pdats m a0 a1 outs 1 c).share_full fun _ => rfl)
      (E11 m outs c) (E12 m outs c) ((pdats m a0 a1 outs 1 c).arrAt · (cfg1 a1).N) (hF1 m a1 outs ho12 c) (hrest1 m outs c)
    rw [Pipeline.unscopedBufs_held, Pipeline.unscopedRest_split preFacts1 c (E11 m outs c),
      show (fun k => E11 m outs c (pre1.ref k)) = a1.1 from funext (hpf1 c)] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

include ho14 in
set_option backward.isDefEq.respectTransparency.types false in
/-- The matrix product as an item: entered from every unscoped buffer at its entry valuation, left at the last
    valuation beside the generator register and nothing owed. Its arrays are taken out of the unscoped buffers at entry
    and put back at exit; the generator register goes into the class invariant and comes back. -/
def reg2 : Pipeline.RegionSeg (pcfgs (F := F)) (adm a0 a1) (pdats m a0 a1 outs) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (E13 m outs) c).loose
  hwaits := Pipeline.hwaits_of_owed_zero (pcfgs (F := F)) (adm a0 a1) (pdats m a0 a1 outs) () L lv 2 fun _ _ => rfl
  pre c := iprop(StableHlo.held (c : Thread nD τ) (Pipeline.ucRefs τ sig) (V13 m outs c) ∗ R c)
  post c := iprop(iprop(StableHlo.held (c : Thread nD τ) (Pipeline.ucRefs τ sig) (V14 m outs c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E13 m outs c)
  hentry c := by
    rw [Pipeline.ownSems0_none]
    have hsplit := Pipeline.arrays_of_unscopedBufs (p := 2) (pcfgs (F := F)) (adm a0 a1) (pdats m a0 a1 outs) (launch2 (F := F)).win (launch2 (F := F)).arr_whole c
      ((pdats m a0 a1 outs 2 c).share_full fun _ => rfl) (E13 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 a1 outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m a0 a1 outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm a0 a1) (Ix := Unit) (Name := ℕ) (U := UR sig nD τ) (Lvl := ℕ)
      (launch2 (F := F)).win (launch2 (F := F)).arr_whole c (pdats m a0 a1 outs) ((pdats m a0 a1 outs 2 c).share_full fun _ => rfl)
      (E13 m outs c) (E14 m outs c) ((pdats m a0 a1 outs 2 c).arrAt · cfg2.N) (hF2 m outs ho14 c) (hrest2 m outs c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hpf0 hpf1 ho10 ho12 ho14 in
set_option backward.isDefEq.respectTransparency.types false in
/-- THE RUN. From any memory with zero counters every weakly fair execution of the program terminates, nothing
    faulting, with the product's result array at what the last launch's write-backs leave and every argument array
    as launched: the launch theorem for a list of items over the three records above, the last thread state read
    against the final memory. -/
theorem run_value : θ_run defs (onTc (τ := τ) (main (F := F))) ⟨m, fun _ => 0, ρ⟩ (fun r => ∀ c : Dev nD,
      r.2.mem ((c.tc : Thread nD τ).loc main_v16) = outs 14 main_v16 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) (adm a0 a1) (pdats m a0 a1 outs) () (cellOf_inj (adm a0 a1)) emb₁ defs₀ 𝒱₀ L lv m ρ main
    (segs m outs 𝒱₀ L lv ER () (adm a0 a1) (pdats m a0 a1 outs) (reg0 m a0 a1 outs hpf0 ho10) (reg1 m a0 a1 outs hpf1 ho12) (reg2 m a0 a1 outs ho14))
    (fun c Q => by
      rewrite [main_chain c, Seg.run_eq_chain,
        show (segs m outs 𝒱₀ L lv ER () (adm a0 a1) (pdats m a0 a1 outs) (reg0 m a0 a1 outs hpf0 ho10) (reg1 m a0 a1 outs hpf1 ho12) (reg2 m a0 a1 outs ho14) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells (Pipeline.pin (pcfgs (F := F)) (adm a0 a1)) (cellOf_inj (adm a0 a1))) (Pipeline.launchToks (Pipeline.pin (pcfgs (F := F)) (adm a0 a1)) (cellOf_inj (adm a0 a1))))
    (hu₀ := by
      iintro Hu; imodintro
      isplitl [Hu]
      · iapply (show (ownU (initOf (Pipeline.cells (Pipeline.pin (pcfgs (F := F)) (adm a0 a1)) (cellOf_inj (adm a0 a1))) (Pipeline.launchToks (Pipeline.pin (pcfgs (F := F)) (adm a0 a1)) (cellOf_inj (adm a0 a1)))) : sProp 𝕄)
            ⊢ BI.own (emb₁ (initOf (Pipeline.cells (Pipeline.pin (pcfgs (F := F)) (adm a0 a1)) (cellOf_inj (adm a0 a1))) (Pipeline.launchToks (Pipeline.pin (pcfgs (F := F)) (adm a0 a1)) (cellOf_inj (adm a0 a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V14 m outs c) ∗ ∃ r, prngReg c r))
    (hch := fun c => ⟨.rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v16) = outs 14 main_v16 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  unfold StableHlo.held
  iintro ⟨⟨Hh, -⟩, HSI⟩
  ihave Hr := (pointsTo_read_all (Pipeline.ucRefs τ sig) (fun b => ((c : Thread nD τ).1, b)) (V14 m outs c) s') $$ [Hh HSI]
  · isplitl [Hh] <;> iassumption
  icases Hr with ⟨%h, HSI⟩
  imodintro
  isplitr
  · ipureintro
    exact ⟨(h (Proc.devRef .tc main_v16) (Finset.mem_filter.mpr ⟨StableHlo.devRef_mem_tcRefs main_v16, by decide⟩)).trans (E14_v16 m outs c),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c)⟩
  · iexact HSI

end Run

end Cert.KernelIdeal.Hand

end
-- ==== Proof.RowIndex.lean ====
/-
  The index vectors. Each is, entry by entry, one function of an observation word and an action word:
  the observation clamped to [0, 99999], times ten, plus the action clamped to [0, 9], all in 32-bit words read as
  signed integers. Whatever the two words are, the result lies in [0, 999999]: no product or sum wraps, the word is
  not negative as a signed integer, and as a row number it is inside the table's 1000000 rows. That range is what
  makes every row block of a gather lie inside its array.
-/
import proofs.«429174_j50319836840675_1_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

/-- A word clamped from below by zero and from above by `hi`, as signed integers. -/
def clampWord (hi x : BitVec 32) : BitVec 32 := IntOp.minsi hi (IntOp.maxsi 0#32 x)

/-- The clamp lands in [0, hi] when `hi` is a nonnegative signed word. -/
theorem clampWord_le (hi x : BitVec 32) (hhi : hi.toNat < 2 ^ 31) : (clampWord hi x).toNat ≤ hi.toNat := by
  unfold clampWord IntOp.minsi IntOp.maxsi
  simp only [BitVec.slt, BitVec.toInt_eq_toNat_cond, BitVec.toNat_ofNat, decide_eq_true_eq]
  have hx := x.isLt
  split_ifs <;> simp_all <;> omega

/-- The row number of an (observation, action) pair. -/
def rowWord (o a : BitVec 32) : BitVec 32 :=
  IntOp.addi (IntOp.muli (clampWord 99999#32 o) 10#32) (clampWord 9#32 a)

theorem rowWord_toNat (o a : BitVec 32) :
    (rowWord o a).toNat = (clampWord 99999#32 o).toNat * 10 + (clampWord 9#32 a).toNat := by
  have h1 := clampWord_le 99999#32 o (by decide)
  have h2 := clampWord_le 9#32 a (by decide)
  simp only [BitVec.toNat_ofNat] at h1 h2
  unfold rowWord IntOp.addi IntOp.muli
  simp only [BitVec.toNat_add, BitVec.toNat_mul, BitVec.toNat_ofNat]
  omega

/-- Every row number is inside the table. -/
theorem rowWord_lt (o a : BitVec 32) : (rowWord o a).toNat < 1000000 := by
  have h1 := clampWord_le 99999#32 o (by decide)
  have h2 := clampWord_le 9#32 a (by decide)
  simp only [BitVec.toNat_ofNat] at h1 h2
  rw [rowWord_toNat]; omega

end Cert.KernelIdeal.Hand

end
-- ==== Proof.Tables.lean ====
/-
  The index vectors as the program computes them. At the first gather's entry the vector it prefetches holds,
  at entry i, the row number of (observations[i], actions[i]); the second gather's vector, computed by the same
  nine stretches, holds that of (future_observations[i], future_actions[i]). Since every row number is below
  1000000, the block a gather stages at any grid point — one row of the [1000000, 1, 64] view of its table — lies
  inside the array: the pipeline's side condition on the tables' contents.
-/
import proofs.«429174_j50319836840675_1_alg».proof.Proof.RowIndex

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The index vector of two word vectors, as the nine stretches compute it: both clamped against broadcast
    constants, the first times a broadcast ten, plus the second. -/
def rowVec (x0 x1 : (⟨S8192, .i32⟩ : BufTy).Contents (Elt F)) : (⟨S8192, .i32⟩ : BufTy).Contents (Elt F) :=
  addi (muli (minsi (broadcastInDim S8192 ![] bcast_S_S8192 (id (constantI S_ 32 99999#32))) (maxsi (broadcastInDim S8192 ![] bcast_S_S8192 (id (constantI S_ 32 0#32))) x0))
      (broadcastInDim S8192 ![] bcast_S_S8192 (constantI S_ 32 10#32)))
    (minsi (broadcastInDim S8192 ![] bcast_S_S8192 (id (constantI S_ 32 9#32))) (maxsi (broadcastInDim S8192 ![] bcast_S_S8192 (id (constantI S_ 32 0#32))) x1))

/-- Entry by entry it is the row number of the two words. -/
theorem rowVec_apply (x0 x1 : (⟨S8192, .i32⟩ : BufTy).Contents (Elt F)) (i : S8192.Idx) :
    rowVec (F := F) x0 x1 i = rowWord (x0 i) (x1 i) := rfl

set_option maxRecDepth 8192 in
set_option maxHeartbeats 2000000 in
/-- The first gather's index vector at its entry. -/
theorem v4_at_entry (c : Dev nD) :
    (V9 m c (Proc.devRef .tc main_v4) : (⟨S8192, .i32⟩ : BufTy).Contents (Elt F))
      = rowVec (F := F) (m ((c.tc : Thread nD τ).loc main_arg0)) (m ((c.tc : Thread nD τ).loc main_arg1)) := by
  after_results
  rfl

set_option maxRecDepth 8192 in
set_option maxHeartbeats 2000000 in
/-- The second gather's index vector, already at the first gather's entry (no later item writes it). -/
theorem v9_at_entry (c : Dev nD) :
    (V9 m c (Proc.devRef .tc main_v9) : (⟨S8192, .i32⟩ : BufTy).Contents (Elt F))
      = rowVec (F := F) (m ((c.tc : Thread nD τ).loc main_arg2)) (m ((c.tc : Thread nD τ).loc main_arg3)) := by
  after_results
  rfl

/-- A table whose every word is a row number inside the table meets the first gather's side condition. -/
theorem ok0_of_lt (pf : pre0.Contents (Elt F)) (h : ∀ x, (pf 0 x : BitVec 32).toNat < 1000000) : ok0 (F := F) pf :=
  fun i => ⟨fun a =>
    match a with
    | ⟨0, _⟩ => Nat.le_trans (Nat.le_of_eq (Nat.mul_one _)) (Nat.succ_le_of_lt (h _))
    | ⟨1, _⟩ => Nat.le_refl _
    | ⟨2, _⟩ => Nat.le_refl _, .inl rfl⟩

/-- The same for the second gather. -/
theorem ok1_of_lt (pf : pre1.Contents (Elt F)) (h : ∀ x, (pf 0 x : BitVec 32).toNat < 1000000) : ok1 (F := F) pf :=
  fun i => ⟨fun a =>
    match a with
    | ⟨0, _⟩ => Nat.le_trans (Nat.le_of_eq (Nat.mul_one _)) (Nat.succ_le_of_lt (h _))
    | ⟨1, _⟩ => Nat.le_refl _
    | ⟨2, _⟩ => Nat.le_refl _, .inl rfl⟩

end Cert.KernelIdeal.Hand

end
-- ==== Proof.Close.lean ====
/-
  The run's hypotheses discharged. The two index vectors at the gathers' entries are, word by word, row numbers
  below 1000000, so both gathers' side conditions hold at them. What the three launches leave is defined launch by
  launch, each from the contents the one before it left. With that the program's run is unconditional: it
  terminates, nothing faults, the product's result array ends at what the last launch leaves and every argument
  array ends as launched.
-/
import proofs.«429174_j50319836840675_1_alg».proof.Proof.Run
import proofs.«429174_j50319836840675_1_alg».proof.Proof.Tables

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

section Close

variable {F : FTy → Type} [FloatOps F]
variable (m : (ℓ : Loc nD τ sig) → Buf (Elt F) ℓ) (ρ : Dev nD → PrngReg)

/-- The argument arrays of core `c`, at their literal types. -/
abbrev obsA (c : Dev nD) : S8192.Idx → BitVec 32 := m ((c.tc : Thread nD τ).loc main_arg0)
abbrev actA (c : Dev nD) : S8192.Idx → BitVec 32 := m ((c.tc : Thread nD τ).loc main_arg1)
abbrev fobsA (c : Dev nD) : S8192.Idx → BitVec 32 := m ((c.tc : Thread nD τ).loc main_arg2)
abbrev factA (c : Dev nD) : S8192.Idx → BitVec 32 := m ((c.tc : Thread nD τ).loc main_arg3)

/-- The two index vectors, read off the contents at the first gather's entry (there is one device). -/
def tbl0 : pre0.Contents (Elt F) := fun j => V9 m (0 : Dev nD) (pre0.ref j)
def tbl1 : pre1.Contents (Elt F) := fun j => V9 m (0 : Dev nD) (pre1.ref j)

theorem tbl0_word (x : S8192.Idx) : (tbl0 m 0 x : BitVec 32) = rowWord (obsA m 0 x) (actA m 0 x) := by
  show (V9 m 0 (Proc.devRef .tc main_v4) : (⟨S8192, .i32⟩ : BufTy).Contents (Elt F)) x = _
  rw [v4_at_entry]; rfl
theorem tbl1_word (x : S8192.Idx) : (tbl1 m 0 x : BitVec 32) = rowWord (fobsA m 0 x) (factA m 0 x) := by
  show (V9 m 0 (Proc.devRef .tc main_v9) : (⟨S8192, .i32⟩ : BufTy).Contents (Elt F)) x = _
  rw [v9_at_entry]; rfl

/-- Both meet their gather's side condition. -/
def adm0 : (pcfg0 (F := F)).Adm := ⟨tbl0 m, ok0_of_lt (tbl0 m) fun x => lt_of_eq_of_lt (congrArg BitVec.toNat (tbl0_word m x)) (rowWord_lt _ _)⟩
def adm1 : (pcfg1 (F := F)).Adm := ⟨tbl1 m, ok1_of_lt (tbl1 m) fun x => lt_of_eq_of_lt (congrArg BitVec.toNat (tbl1_word m x)) (rowWord_lt _ _)⟩

/-! ## What each launch leaves, in the order the launches run -/

/-- The first gather's result array after its last point. -/
def o10 (c : Dev nD) : Buf (Elt F) ((c : Thread nD τ).loc main_v11) := (dat0 (adm0 m) (E9 m) c).arrAt 1 (cfg0 (adm0 m)).N
/-- The contents the regions leave, known up to the first gather. -/
def outsA : Outs (F := F) := fun _ r c => if h : r = main_v11 then h ▸ o10 m c else V0 m c r
/-- The second gather's result array after its last point. -/
def o12 (c : Dev nD) : Buf (Elt F) ((c : Thread nD τ).loc main_v14) := (dat1 (adm1 m) (E11 m (outsA m)) c).arrAt 1 (cfg1 (adm1 m)).N
/-- … known up to the second gather. -/
def outsB : Outs (F := F) := fun _ r c => if h : r = main_v11 then h ▸ o10 m c else if h : r = main_v14 then h ▸ o12 m c else V0 m c r
/-- The product's result array after its last point. -/
def o14 (c : Dev nD) : Buf (Elt F) ((c : Thread nD τ).loc main_v16) := (dat2 (E13 m (outsB m)) c).arrAt 2 cfg2.N
/-- … and of all three launches. -/
def outsC : Outs (F := F) := fun _ r c =>
  if h : r = main_v11 then h ▸ o10 m c else if h : r = main_v14 then h ▸ o12 m c else if h : r = main_v16 then h ▸ o14 m c else V0 m c r

theorem outsA_v11 (n : ℕ) (c : Dev nD) : outsA m n main_v11 c = o10 m c := by unfold outsA; rw [dif_pos rfl]
theorem outsB_v11 (n : ℕ) (c : Dev nD) : outsB m n main_v11 c = o10 m c := by unfold outsB; rw [dif_pos rfl]
theorem outsC_v11 (n : ℕ) (c : Dev nD) : outsC m n main_v11 c = o10 m c := by unfold outsC; rw [dif_pos rfl]
theorem outsB_v14 (n : ℕ) (c : Dev nD) : outsB m n main_v14 c = o12 m c := by
  unfold outsB; rw [dif_neg (by decide), dif_pos rfl]
theorem outsC_v14 (n : ℕ) (c : Dev nD) : outsC m n main_v14 c = o12 m c := by
  unfold outsC; rw [dif_neg (by decide), dif_pos rfl]
theorem outsC_v16 (n : ℕ) (c : Dev nD) : outsC m n main_v16 c = o14 m c := by
  unfold outsC; rw [dif_neg (by decide), dif_neg (by decide), dif_pos rfl]

/-- The second gather's entry contents read only what the first gather left. -/
theorem E11_C (c : Dev nD) : V11 m (outsC m) c = V11 m (outsA m) c := by
  show StableHlo.after hostOps1 (Function.update (V9 m c) (Proc.devRef .tc main_v11) (outsC m 10 main_v11 c))
    = StableHlo.after hostOps1 (Function.update (V9 m c) (Proc.devRef .tc main_v11) (outsA m 10 main_v11 c))
  rw [outsC_v11, outsA_v11]
theorem E11_B (c : Dev nD) : V11 m (outsB m) c = V11 m (outsA m) c := by
  show StableHlo.after hostOps1 (Function.update (V9 m c) (Proc.devRef .tc main_v11) (outsB m 10 main_v11 c))
    = StableHlo.after hostOps1 (Function.update (V9 m c) (Proc.devRef .tc main_v11) (outsA m 10 main_v11 c))
  rw [outsB_v11, outsA_v11]
/-- The product's entry contents read only what the two gathers left. -/
theorem E13_C (c : Dev nD) : V13 m (outsC m) c = V13 m (outsB m) c := by
  show StableHlo.after hostOps2 (Function.update (V11 m (outsC m) c) (Proc.devRef .tc main_v14) (outsC m 12 main_v14 c))
    = StableHlo.after hostOps2 (Function.update (V11 m (outsB m) c) (Proc.devRef .tc main_v14) (outsB m 12 main_v14 c))
  rw [E11_C, E11_B, outsC_v14, outsB_v14]

theorem hpf0 (c : Dev nD) (k : Fin pre0.K) : E9 m c (pre0.ref k) = (adm0 m).1 k := by
  obtain rfl : c = 0 := Subsingleton.elim _ _; rfl
theorem hpf1 (c : Dev nD) (k : Fin pre1.K) : E11 m (outsC m) c (pre1.ref k) = (adm1 m).1 k := by
  obtain rfl : c = 0 := Subsingleton.elim _ _
  obtain rfl : k = 0 := Subsingleton.elim _ _
  exact (V11_of m (outsC m) 0 main_v9 (by decide)).trans (V10_of m (outsC m) 0 main_v9 (by decide))
theorem ho10 (c : Dev nD) : outsC m 10 main_v11 c = (dat0 (adm0 m) (E9 m) c).arrAt 1 (cfg0 (adm0 m)).N := outsC_v11 m 10 c
theorem ho12 (c : Dev nD) : outsC m 12 main_v14 c = (dat1 (adm1 m) (E11 m (outsC m)) c).arrAt 1 (cfg1 (adm1 m)).N := by
  rw [show E11 m (outsC m) = E11 m (outsA m) from funext fun c => funext fun b => congrFun (E11_C m c) (Proc.devRef .tc b)]
  exact outsC_v14 m 12 c
theorem ho14 (c : Dev nD) : outsC m 14 main_v16 c = (dat2 (E13 m (outsC m)) c).arrAt 2 cfg2.N := by
  rw [show E13 m (outsC m) = E13 m (outsB m) from funext fun c => funext fun b => congrFun (E13_C m c) (Proc.devRef .tc b)]
  exact outsC_v16 m 14 c

/-- THE RUN, unconditional: the result array at what the last launch leaves, the arguments as launched. -/
theorem run_closed : θ_run defs (onTc (τ := τ) (main (F := F))) ⟨m, fun _ => 0, ρ⟩ (fun r => ∀ c : Dev nD,
      r.2.mem ((c.tc : Thread nD τ).loc main_v16) = outsC m 14 main_v16 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_value m ρ (adm0 m) (adm1 m) (outsC m) (hpf0 m) (hpf1 m) (ho10 m) (ho12 m) (ho14 m)

/-- THE FRAME: every weakly fair execution terminates, nothing faulting, every argument array as launched. -/
theorem frame_closed : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_closed m ρ)

end Close

end Cert.KernelIdeal.Hand

end
-- ==== Proof.Between.lean ====
/-
  The host operations between the launches, read as values. Each is a reshape that keeps the row-major order:
  the tables are viewed as [1000000, 1, 64] before their gathers, and each gather's [8192, 1, 64] result is flattened
  to [8192, 64] before the product. Read at an index, (r, 0, k) of the longer shape is (r, k) of the shorter.
-/
import proofs.«429174_j50319836840675_1_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- After the stretch between the two gathers, the flattened first result, from any contents before it. -/
theorem after1_v12 (W : Valuation τ sig (Elt F)) :
    (StableHlo.after (hostOps1 (F := F)) W (Proc.devRef .tc main_v12) : (⟨S8192x64, .bf16⟩ : BufTy).Contents (Elt F))
      = shapeCast S8192x64 (W (Proc.devRef .tc main_v11) : (⟨S8192x1x64, .bf16⟩ : BufTy).Contents (Elt F)) shapeCasts_S8192x1x64_S8192x64 := by
  after_results
  rfl

/-- After the same stretch, the second table viewed with a unit middle axis. -/
theorem after1_v13 (W : Valuation τ sig (Elt F)) :
    (StableHlo.after (hostOps1 (F := F)) W (Proc.devRef .tc main_v13) : (⟨S1000000x1x64, .f32⟩ : BufTy).Contents (Elt F))
      = shapeCast S1000000x1x64 (W (Proc.devRef .tc main_arg5) : (⟨S1000000x64, .f32⟩ : BufTy).Contents (Elt F)) shapeCasts_S1000000x64_S1000000x1x64 := by
  after_results
  rfl

/-- After the stretch before the product, the flattened second result. -/
theorem after2_v15 (W : Valuation τ sig (Elt F)) :
    (StableHlo.after (hostOps2 (F := F)) W (Proc.devRef .tc main_v15) : (⟨S8192x64, .bf16⟩ : BufTy).Contents (Elt F))
      = shapeCast S8192x64 (W (Proc.devRef .tc main_v14) : (⟨S8192x1x64, .bf16⟩ : BufTy).Contents (Elt F)) shapeCasts_S8192x1x64_S8192x64 := by
  after_results
  rfl

variable (m : (ℓ : Loc nD τ sig) → Buf (Elt F) ℓ)

set_option maxRecDepth 8192 in
set_option maxHeartbeats 2000000 in
/-- At the first gather's entry, the first table viewed with a unit middle axis. -/
theorem v10_at_entry (c : Dev nD) :
    (V9 m c (Proc.devRef .tc main_v10) : (⟨S1000000x1x64, .f32⟩ : BufTy).Contents (Elt F))
      = shapeCast S1000000x1x64 (m ((c.tc : Thread nD τ).loc main_arg4) : (⟨S1000000x64, .f32⟩ : BufTy).Contents (Elt F)) shapeCasts_S1000000x64_S1000000x1x64 := by
  after_results
  rfl

set_option maxRecDepth 8192 in
set_option maxHeartbeats 2000000 in
/-- At the first gather's entry, the second table is as launched. -/
theorem arg5_at_entry (c : Dev nD) :
    V9 m c (Proc.devRef .tc main_arg5) = m ((c.tc : Thread nD τ).loc main_arg5) := by
  after_results

/-- The unit-middle-axis view of a table at (r, 0, k) is the table at (r, k). -/
theorem view_row (T : (⟨2, ![1000000, 64]⟩ : Shape).Idx → EReal) (h : (⟨2, ![1000000, 64]⟩ : Shape).ShapeCasts ⟨3, ![1000000, 1, 64]⟩)
    (r : Fin 1000000) (k : Fin 64) :
    shapeCast (⟨3, ![1000000, 1, 64]⟩ : Shape) T h (ValueIdx.ix3 r (0 : Fin 1) k) = T (ValueIdx.ix2 r k) := by
  refine shapeCast_apply T h _ _ ?_
  rw [Shape.rowMajor_val_two, Shape.rowMajor_val_three]
  show r.val * 64 + k.val = (r.val * 1 + 0) * 64 + k.val
  omega

/-- The flattened result at (i, k) is the result at (i, 0, k). -/
theorem flat_row (X : (⟨3, ![8192, 1, 64]⟩ : Shape).Idx → EReal) (h : (⟨3, ![8192, 1, 64]⟩ : Shape).ShapeCasts ⟨2, ![8192, 64]⟩)
    (i : Fin 8192) (k : Fin 64) :
    shapeCast (⟨2, ![8192, 64]⟩ : Shape) X h (ValueIdx.ix2 i k) = X (ValueIdx.ix3 i (0 : Fin 1) k) := by
  refine shapeCast_apply X h _ _ ?_
  rw [Shape.rowMajor_val_two, Shape.rowMajor_val_three]
  show (i.val * 1 + 0) * 64 + k.val = i.val * 64 + k.val
  omega

end Cert.KernelIdeal.Hand

end
-- ==== Proof.GatherValue0.lean ====
/-
  What the first row gather leaves in its result array, over the extended reals. Grid point t writes back one
  block, row t of the [8192, 1, 64] result; it holds the row of the table array the point staged, unchanged (the
  body's only operation is a change of float format). With r(t) the number of the staged row, the result array is,
  index by index, (t, 0, k) ↦ table(r(t), 0, k); the 8192 blocks tile the result, so this is the whole array.
-/
import proofs.«429174_j50319836840675_1_alg».proof.Proof.Gather0
import Idealize.ShloMosaic.Lib.Pipeline.Value
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

section GatherValue0

variable (a : (pcfg0 (F := Ideal)).Adm)
variable (V : (c : Dev nD) → (b : Ref sig .tc) → Buf (Elt Ideal) ((c : Thread nD τ).loc b))

theorem zero3 : (![0, 0, 0] : Fin 3 → Nat) = fun _ => 0 := funext fun a => by fin_cases a <;> rfl

/-- At the ideal instance the body's payload is the row it loaded. -/
theorem pay0_eq (x0 : Vec Ideal S1x1x64 .f32) : (k0_pay1 (F := Ideal) x0 : S1x1x64.Idx → EReal) = x0 := by
  unfold k0_pay1
  funext y
  rw [ValueIdx.truncf_apply, shapeCast_self]

/-- Every point writes its result block back. -/
theorem flush0_1 : ∀ t : Fin (cfg0 a).N, ((cfg0 a).win 1).flush t = true :=
  (by decide +kernel : ∀ t : Fin grid0.N, Pipeline.Window.flushOf grid0 true cc0_transform_1 t = true)

/-- The result window's block index at point t is (t, 0, 0). -/
theorem index0_1 : ∀ t : Fin (cfg0 a).N, ((cfg0 a).win 1).index t = ![t.val, 0, 0] :=
  (by decide +kernel : ∀ t : Fin grid0.N, cc0_transform_1 (grid0.coords t) = ![t.val, 0, 0])

/-- The array the statement names: row t of the result is row r(t) of the table array. -/
def gathered (r : Fin 8192 → Fin 1000000) (T : S1000000x1x64.Idx → EReal) : S8192x1x64.Idx → EReal :=
  fun x => T (ValueIdx.ix3 (r (x 0)) (0 : Fin 1) (x 2))

variable (r : Fin 8192 → Fin 1000000)
variable (hr : ∀ (t : Fin (cfg0 a).N) (ht : t.val < 8192), ((cfg0 a).win 0).index t (0 : Fin 3) = (r ⟨t.val, ht⟩).val)

/-- At the ideal instance the result buffer is left holding the loaded row itself. -/
theorem out0_1_eq (x0 : Vec Ideal S1x1x64 .f32) : (out0_1 (F := Ideal) x0 : S1x1x64.Idx → EReal) = x0 := by
  unfold out0_1
  rw [View.canon_unit_zero zero3, View.ld_unit_zero zero3, pay0_eq]

/-- The table read at x is the gathered array read at y, once the coordinates match: y's row is t, x's row is
    r(t), x's middle coordinate is 0 and the columns agree. -/
theorem gathered_of_coords (T : S1000000x1x64.Idx → EReal) (x : S1000000x1x64.Idx) (y : S8192x1x64.Idx)
    (t : Nat) (ht : t < 8192) (hy0 : (y 0).val = t) (hx0 : (x 0).val = (r ⟨t, ht⟩).val) (hx1 : (x 1).val = 0)
    (hx2 : (x 2).val = (y 2).val) : T x = gathered r T y := by
  unfold gathered
  have e : y 0 = ⟨t, ht⟩ := Fin.ext hy0
  rw [e]
  refine congrArg T (funext fun b => Fin.ext ?_)
  match b with
  | ⟨0, _⟩ => exact hx0
  | ⟨1, _⟩ => exact hx1
  | ⟨2, _⟩ => exact hx2

include hr in
/-- Inside block t: the staged table block and the result block are read at matching places. -/
theorem blk_rows (c : Dev nD) (t : Fin (cfg0 a).N) (j : S1x1x64.Idx) :
    (V c main_v10 : S1000000x1x64.Idx → EReal) ((((cfg0 a).win 0).blk t).view.emb j)
      = gathered r (V c main_v10) ((((cfg0 a).win 1).blk t).view.emb j) := by
  have ht : t.val < 8192 := t.isLt
  have h1 := index0_1 a t
  have h0 := hr t ht
  have hj0 : (j 0).val < 1 := (j 0).isLt
  have hj1 : (j 1).val < 1 := (j 1).isLt
  refine gathered_of_coords r (V c main_v10) _ _ t.val ht ?_ ?_ ?_ ?_
  · show ((cfg0 a).win 1).index t (0 : Fin 3) * 1 + 1 * (j 0).val = t.val
    rw [h1]; show t.val * 1 + 1 * (j 0).val = t.val; omega
  · show ((cfg0 a).win 0).index t (0 : Fin 3) * 1 + 1 * (j 0).val = (r ⟨t.val, ht⟩).val
    rw [h0]; omega
  · show 0 * 1 + 1 * (j 1).val = 0; omega
  · show 0 * 64 + 1 * (j 2).val = ((cfg0 a).win 1).index t (2 : Fin 3) * 64 + 1 * (j 2).val
    rw [h1]; rfl

include hr in
/-- What point t writes back is block t of that array. -/
theorem flushed0_eq (c : Dev nD) (t : Fin (cfg0 a).N) :
    (dat0 (F := Ideal) a V c).flushed 1 t = (((cfg0 a).win 1).blk t).view.read (Elt Ideal) (gathered r (V c main_v10)) := by
  show ((cfg0 a).win 1).cut (grid0.coords t) ((dat0 (F := Ideal) a V c).after 1 t) = _
  rw [after0_1]
  refine (congrArg (((cfg0 a).win 1).cut (grid0.coords t)) (out0_1_eq (iblk0 a V c 0 t))).trans ?_
  funext j
  exact blk_rows a V r hr c t j

/-- In point t's result block, the in-block index (0, 0, k) sits at (t, 0, k) of the array. -/
theorem emb_block_row (t : Fin (cfg0 a).N) (i : S8192x1x64.Idx) (h0 : (i 0).val = t.val) :
    (((cfg0 a).win 1).blk t).view.emb (ValueIdx.ix3 (0 : Fin 1) (0 : Fin 1) (i 2) : S1x1x64.Idx) = i := by
  have h1 := index0_1 a t
  have hi1 : (i 1).val < 1 := (i 1).isLt
  funext b; apply Fin.ext
  match b with
  | ⟨0, _⟩ => show ((cfg0 a).win 1).index t (0 : Fin 3) * 1 + 1 * 0 = (i 0).val
              rw [h1, h0]; show t.val * 1 + 1 * 0 = t.val; omega
  | ⟨1, _⟩ => show ((cfg0 a).win 1).index t (1 : Fin 3) * 1 + 1 * 0 = (i 1).val
              rw [h1]; show 0 * 1 + 1 * 0 = (i 1).val; omega
  | ⟨2, _⟩ => show ((cfg0 a).win 1).index t (2 : Fin 3) * 64 + 1 * (i 2).val = (i 2).val
              rw [h1]; show 0 * 64 + 1 * (i 2).val = (i 2).val; omega

/-- The blocks tile the result: index (i, 0, k) lies in point i's block. -/
theorem cover0_1_arr (i : S8192x1x64.Idx) :
    ∃ t : Fin (cfg0 a).N, ((cfg0 a).win 1).flush t = true ∧ i ∈ (((cfg0 a).win 1).blk t).view.set := by
  have hi0 : (i 0).val < 8192 := (i 0).isLt
  refine ⟨⟨(i 0).val, hi0⟩, flush0_1 a _, ?_⟩
  have hm := (((cfg0 a).win 1).blk ⟨(i 0).val, hi0⟩).view.emb_mem_set (ValueIdx.ix3 (0 : Fin 1) (0 : Fin 1) (i 2) : S1x1x64.Idx)
  rw [emb_block_row a ⟨(i 0).val, hi0⟩ i rfl] at hm
  exact hm

/-- The words of the prefetched table are one per grid point: the staged block's leading index at point t is the
    t-th word of the table. -/
theorem word_offsets0 : ∀ t : Fin grid0.N, k0_off1 (grid0.coords t) = ![t.val] := by decide +kernel

theorem index0_0 (t : Fin (cfg0 a).N) (ht : t.val < 8192) :
    ((cfg0 a).win 0).index t (0 : Fin 3) = (a.1 0 (ValueIdx.ix1 ⟨t.val, ht⟩) : BitVec 32).toNat := by
  have hk : k0_off1 (grid0.coords t) (0 : Fin 1) = t.val := congrFun (word_offsets0 t) 0
  show BitVec.toNat (a.1 0 _) = _
  refine congrArg BitVec.toNat (congrArg (a.1 0) (funext fun b => Fin.ext ?_))
  match b with
  | ⟨0, _⟩ => show k0_off1 (grid0.coords t) (0 : Fin 1) + 1 * 0 = t.val
              rw [hk]; omega

include hr in
/-- THE RESULT ARRAY after the last point: row t is row r(t) of the table array. -/
theorem gather0_final (c : Dev nD) :
    (dat0 (F := Ideal) a V c).arrAt 1 (cfg0 a).N = gathered r (V c main_v10) :=
  (dat0 (F := Ideal) a V c).arrAt_eq_of_cover 1 (gathered r (V c main_v10)) (fun t _ => flushed0_eq a V r hr c t) (fun i => cover0_1_arr a i)

end GatherValue0

end Cert.KernelIdeal.Hand

end
-- ==== Proof.GatherValue1.lean ====
/-
  What the second row gather leaves in its result array, over the extended reals. Grid point t writes back one
  block, row t of the [8192, 1, 64] result; it holds the row of the table array the point staged, unchanged (the
  body's only operation is a change of float format). With r(t) the number of the staged row, the result array is,
  index by index, (t, 0, k) ↦ table(r(t), 0, k); the 8192 blocks tile the result, so this is the whole array.
-/
import proofs.«429174_j50319836840675_1_alg».proof.Proof.Gather1
import Idealize.ShloMosaic.Lib.Pipeline.Value
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

section GatherValue1

variable (a : (pcfg1 (F := Ideal)).Adm)
variable (V : (c : Dev nD) → (b : Ref sig .tc) → Buf (Elt Ideal) ((c : Thread nD τ).loc b))

theorem zero3b : (![0, 0, 0] : Fin 3 → Nat) = fun _ => 0 := funext fun a => by fin_cases a <;> rfl

/-- At the ideal instance the body's payload is the row it loaded. -/
theorem pay1_eq (x0 : Vec Ideal S1x1x64 .f32) : (k1_pay1 (F := Ideal) x0 : S1x1x64.Idx → EReal) = x0 := by
  unfold k1_pay1
  funext y
  rw [ValueIdx.truncf_apply, shapeCast_self]

/-- Every point writes its result block back. -/
theorem flush1_1 : ∀ t : Fin (cfg1 a).N, ((cfg1 a).win 1).flush t = true :=
  (by decide +kernel : ∀ t : Fin grid1.N, Pipeline.Window.flushOf grid1 true cc1_transform_1 t = true)

/-- The result window's block index at point t is (t, 0, 0). -/
theorem index1_1 : ∀ t : Fin (cfg1 a).N, ((cfg1 a).win 1).index t = ![t.val, 0, 0] :=
  (by decide +kernel : ∀ t : Fin grid1.N, cc1_transform_1 (grid1.coords t) = ![t.val, 0, 0])

/-- The array the statement names: row t of the result is row r(t) of the table array. -/
def gatheredB (r : Fin 8192 → Fin 1000000) (T : S1000000x1x64.Idx → EReal) : S8192x1x64.Idx → EReal :=
  fun x => T (ValueIdx.ix3 (r (x 0)) (0 : Fin 1) (x 2))

variable (r : Fin 8192 → Fin 1000000)
variable (hr : ∀ (t : Fin (cfg1 a).N) (ht : t.val < 8192), ((cfg1 a).win 0).index t (0 : Fin 3) = (r ⟨t.val, ht⟩).val)

/-- At the ideal instance the result buffer is left holding the loaded row itself. -/
theorem out1_1_eq (x0 : Vec Ideal S1x1x64 .f32) : (out1_1 (F := Ideal) x0 : S1x1x64.Idx → EReal) = x0 := by
  unfold out1_1
  rw [View.canon_unit_zero zero3b, View.ld_unit_zero zero3b, pay1_eq]

/-- The table read at x is the gatheredB array read at y, once the coordinates match: y's row is t, x's row is
    r(t), x's middle coordinate is 0 and the columns agree. -/
theorem gatheredB_of_coords (T : S1000000x1x64.Idx → EReal) (x : S1000000x1x64.Idx) (y : S8192x1x64.Idx)
    (t : Nat) (ht : t < 8192) (hy0 : (y 0).val = t) (hx0 : (x 0).val = (r ⟨t, ht⟩).val) (hx1 : (x 1).val = 0)
    (hx2 : (x 2).val = (y 2).val) : T x = gatheredB r T y := by
  unfold gatheredB
  have e : y 0 = ⟨t, ht⟩ := Fin.ext hy0
  rw [e]
  refine congrArg T (funext fun b => Fin.ext ?_)
  match b with
  | ⟨0, _⟩ => exact hx0
  | ⟨1, _⟩ => exact hx1
  | ⟨2, _⟩ => exact hx2

include hr in
/-- Inside block t: the staged table block and the result block are read at matching places. -/
theorem blk_rowsB (c : Dev nD) (t : Fin (cfg1 a).N) (j : S1x1x64.Idx) :
    (V c main_v13 : S1000000x1x64.Idx → EReal) ((((cfg1 a).win 0).blk t).view.emb j)
      = gatheredB r (V c main_v13) ((((cfg1 a).win 1).blk t).view.emb j) := by
  have ht : t.val < 8192 := t.isLt
  have h1 := index1_1 a t
  have h0 := hr t ht
  have hj0 : (j 0).val < 1 := (j 0).isLt
  have hj1 : (j 1).val < 1 := (j 1).isLt
  refine gatheredB_of_coords r (V c main_v13) _ _ t.val ht ?_ ?_ ?_ ?_
  · show ((cfg1 a).win 1).index t (0 : Fin 3) * 1 + 1 * (j 0).val = t.val
    rw [h1]; show t.val * 1 + 1 * (j 0).val = t.val; omega
  · show ((cfg1 a).win 0).index t (0 : Fin 3) * 1 + 1 * (j 0).val = (r ⟨t.val, ht⟩).val
    rw [h0]; omega
  · show 0 * 1 + 1 * (j 1).val = 0; omega
  · show 0 * 64 + 1 * (j 2).val = ((cfg1 a).win 1).index t (2 : Fin 3) * 64 + 1 * (j 2).val
    rw [h1]; rfl

include hr in
/-- What point t writes back is block t of that array. -/
theorem flushed1_eq (c : Dev nD) (t : Fin (cfg1 a).N) :
    (dat1 (F := Ideal) a V c).flushed 1 t = (((cfg1 a).win 1).blk t).view.read (Elt Ideal) (gatheredB r (V c main_v13)) := by
  show ((cfg1 a).win 1).cut (grid1.coords t) ((dat1 (F := Ideal) a V c).after 1 t) = _
  rw [after1_1]
  refine (congrArg (((cfg1 a).win 1).cut (grid1.coords t)) (out1_1_eq (iblk1 a V c 0 t))).trans ?_
  funext j
  exact blk_rowsB a V r hr c t j

/-- In point t's result block, the in-block index (0, 0, k) sits at (t, 0, k) of the array. -/
theorem emb_block_rowB (t : Fin (cfg1 a).N) (i : S8192x1x64.Idx) (h0 : (i 0).val = t.val) :
    (((cfg1 a).win 1).blk t).view.emb (ValueIdx.ix3 (0 : Fin 1) (0 : Fin 1) (i 2) : S1x1x64.Idx) = i := by
  have h1 := index1_1 a t
  have hi1 : (i 1).val < 1 := (i 1).isLt
  funext b; apply Fin.ext
  match b with
  | ⟨0, _⟩ => show ((cfg1 a).win 1).index t (0 : Fin 3) * 1 + 1 * 0 = (i 0).val
              rw [h1, h0]; show t.val * 1 + 1 * 0 = t.val; omega
  | ⟨1, _⟩ => show ((cfg1 a).win 1).index t (1 : Fin 3) * 1 + 1 * 0 = (i 1).val
              rw [h1]; show 0 * 1 + 1 * 0 = (i 1).val; omega
  | ⟨2, _⟩ => show ((cfg1 a).win 1).index t (2 : Fin 3) * 64 + 1 * (i 2).val = (i 2).val
              rw [h1]; show 0 * 64 + 1 * (i 2).val = (i 2).val; omega

/-- The blocks tile the result: index (i, 0, k) lies in point i's block. -/
theorem cover1_1_arr (i : S8192x1x64.Idx) :
    ∃ t : Fin (cfg1 a).N, ((cfg1 a).win 1).flush t = true ∧ i ∈ (((cfg1 a).win 1).blk t).view.set := by
  have hi0 : (i 0).val < 8192 := (i 0).isLt
  refine ⟨⟨(i 0).val, hi0⟩, flush1_1 a _, ?_⟩
  have hm := (((cfg1 a).win 1).blk ⟨(i 0).val, hi0⟩).view.emb_mem_set (ValueIdx.ix3 (0 : Fin 1) (0 : Fin 1) (i 2) : S1x1x64.Idx)
  rw [emb_block_rowB a ⟨(i 0).val, hi0⟩ i rfl] at hm
  exact hm

/-- The words of the prefetched table are one per grid point: the staged block's leading index at point t is the
    t-th word of the table. -/
theorem word_offsets1 : ∀ t : Fin grid1.N, k1_off1 (grid1.coords t) = ![t.val] := by decide +kernel

theorem index1_0 (t : Fin (cfg1 a).N) (ht : t.val < 8192) :
    ((cfg1 a).win 0).index t (0 : Fin 3) = (a.1 0 (ValueIdx.ix1 ⟨t.val, ht⟩) : BitVec 32).toNat := by
  have hk : k1_off1 (grid1.coords t) (0 : Fin 1) = t.val := congrFun (word_offsets1 t) 0
  show BitVec.toNat (a.1 0 _) = _
  refine congrArg BitVec.toNat (congrArg (a.1 0) (funext fun b => Fin.ext ?_))
  match b with
  | ⟨0, _⟩ => show k1_off1 (grid1.coords t) (0 : Fin 1) + 1 * 0 = t.val
              rw [hk]; omega

include hr in
/-- THE RESULT ARRAY after the last point: row t is row r(t) of the table array. -/
theorem gather1_final (c : Dev nD) :
    (dat1 (F := Ideal) a V c).arrAt 1 (cfg1 a).N = gatheredB r (V c main_v13) :=
  (dat1 (F := Ideal) a V c).arrAt_eq_of_cover 1 (gatheredB r (V c main_v13)) (fun t _ => flushed1_eq a V r hr c t) (fun i => cover1_1_arr a i)

end GatherValue1

end Cert.KernelIdeal.Hand

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.MatmulValue.lean ====
/-
  The matrix-product launch's result array after its last grid point, over the extended reals: entry (i, j) is
  the sum over the 64 columns k of the left array at (i, k) times the right array at (j, k).
-/
import proofs.«429174_j50319836840675_1_alg».proof.Proof.Matmul2
import proofs.«429174_j50319836840675_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open scoped BigOperators

/-- The whole-block rectangles of the body start at zero on both axes. -/
theorem offsets_zero : (![0, 0] : Fin 2 → Nat) = fun _ => 0 :=
  funext fun a => match a with | ⟨0, _⟩ => rfl | ⟨1, _⟩ => rfl

/-- The product of a left [8192, 64] array with the transpose of a right one: entry (i, j) sums, over the 64 shared
    columns, the left array's row i against the right array's row j. -/
abbrev rowProducts (A B : S8192x64.Idx → EReal) : S8192x8192.Idx → EReal :=
  fun x => ∑ k : Fin 64, A (ValueIdx.ix2 (x 0) k) * B (ValueIdx.ix2 (x 1) k)

/-- The body's arithmetic at an entry of the block: the same-shape casts are identities, the transposed right block is
    read with its coordinates exchanged, and the product into the zero accumulator is the sum over the shared axis. -/
theorem block_product_apply (x0 x1 : Vec Ideal S1024x64 .bf16) (p q : Fin 1024) :
    (k2_pay1 (F := Ideal) x0 x1 : S1024x1024.Idx → EReal) (ValueIdx.ix2 p q)
      = ∑ k : Fin 64, (x0 : S1024x64.Idx → EReal) (ValueIdx.ix2 p k) * (x1 : S1024x64.Idx → EReal) (ValueIdx.ix2 q k) := by
  unfold k2_pay1
  simp only [shapeCast_self]
  refine (PlainDot.matmul_zero_apply dot_S1024x64_S64x1024_S1024x1024_1_0_0_1_n_n ⟨rfl, rfl, rfl, rfl, rfl, rfl⟩ none _ _ p q).trans ?_
  refine Finset.sum_congr rfl fun k _ => ?_
  rw [ValueIdx.transpose_ix2_apply]

/-- The windows' index maps at every point of the 8 × 8 grid: the left window's block row is the result window's block
    row, the right window's block row is the result window's block column, both operand windows sit at block column 0,
    and the result's block indices run through 0 … 7. -/
theorem block_indices : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 7
    ∧ win2_2.index t (1 : Fin 2) ≤ 7 :=
  (by decide +kernel : ∀ t : Fin grid2.N, _)

/-- Every block of the result is some point's. -/
theorem block_onto : ∀ (b0 : Fin 8) (b1 : Fin 8), ∃ t : Fin cfg2.N, win2_2.index t = ![b0.val, b1.val] :=
  (by decide +kernel : ∀ (b0 : Fin 8) (b1 : Fin 8), ∃ t : Fin grid2.N, win2_2.index t = ![b0.val, b1.val])

section Contents

variable (V : (c : Dev nD) → (b : Ref sig .tc) → Buf (Elt Ideal) ((c : Thread nD τ).loc b))

/-- What point `t` writes back is block `t` of the row products of the two operand arrays: entry (p, q) of the block
    sums the left block's row p against the right block's row q, and those rows are rows of the arrays at the block's
    offset. -/
theorem written_back (c : Dev nD) (t : Fin cfg2.N) :
    (dat2 (F := Ideal) V c).flushed 2 t
      = ((cfg2.win 2).blk t).view.read (Elt Ideal) (rowProducts (V c main_v12) (V c main_v15)) := by
  show (cfg2.win 2).cut (grid2.coords t) ((dat2 (F := Ideal) V c).after 2 t) = _
  rw [after2_2]
  unfold out2_2
  rw [View.canon_unit_zero offsets_zero]
  simp only [View.ld_unit_zero (S := S1024x64) offsets_zero]
  obtain ⟨e0, e1, e2, e3, -, -⟩ := block_indices t
  funext j
  show (k2_pay1 (F := Ideal) (iblk2 V c 0 t) (iblk2 V c 1 t) : S1024x1024.Idx → EReal) j
      = rowProducts (V c main_v12) (V c main_v15) (((cfg2.win 2).blk t).view.emb j)
  refine (congrArg (k2_pay1 (F := Ideal) (iblk2 V c 0 t) (iblk2 V c 1 t) : S1024x1024.Idx → EReal)
    (ValueIdx.eq_ix2 (j : S1024x1024.Idx))).trans ?_
  refine (block_product_apply (iblk2 V c 0 t) (iblk2 V c 1 t) (j 0) (j 1)).trans ?_
  refine Finset.sum_congr rfl fun k _ => ?_
  -- row (j 0) of the left block is row (block row × 1024 + j 0) of the left array
  have hl : (iblk2 V c 0 t : S1024x64.Idx → EReal) (ValueIdx.ix2 (j 0) k)
      = (V c main_v12 : S8192x64.Idx → EReal) (ValueIdx.ix2 ((((cfg2.win 2).blk t).view.emb j) 0) k) := by
    show (V c main_v12 : S8192x64.Idx → EReal) (((cfg2.win 0).blk t).view.emb (ValueIdx.ix2 (j 0) k)) = _
    refine congrArg _ (funext fun a => Fin.ext ?_)
    match a with
    | ⟨0, _⟩ =>
      show win2_0.index t (0 : Fin 2) * 1024 + 1 * (j 0).val = win2_2.index t (0 : Fin 2) * 1024 + 1 * (j 0).val
      omega
    | ⟨1, _⟩ =>
      show win2_0.index t (1 : Fin 2) * 64 + 1 * k.val = k.val
      omega
  -- row (j 1) of the right block is row (block column × 1024 + j 1) of the right array
  have hr : (iblk2 V c 1 t : S1024x64.Idx → EReal) (ValueIdx.ix2 (j 1) k)
      = (V c main_v15 : S8192x64.Idx → EReal) (ValueIdx.ix2 ((((cfg2.win 2).blk t).view.emb j) 1) k) := by
    show (V c main_v15 : S8192x64.Idx → EReal) (((cfg2.win 1).blk t).view.emb (ValueIdx.ix2 (j 1) k)) = _
    refine congrArg _ (funext fun a => Fin.ext ?_)
    match a with
    | ⟨0, _⟩ =>
      show win2_1.index t (0 : Fin 2) * 1024 + 1 * (j 1).val = win2_2.index t (1 : Fin 2) * 1024 + 1 * (j 1).val
      omega
    | ⟨1, _⟩ =>
      show win2_1.index t (1 : Fin 2) * 64 + 1 * k.val = k.val
      omega
  rw [hl, hr]

end Contents

/-- An entry of the result array is in point `t`'s block iff each coordinate lies in the block's range on its axis. -/
theorem mem_block (t : Fin cfg2.N) (i : S8192x8192.Idx) :
    i ∈ ((cfg2.win 2).blk t).view.set
      ↔ ∀ a : Fin 2, win2_2.index t a * S1024x1024.size a ≤ (i a).val
          ∧ (i a).val < win2_2.index t a * S1024x1024.size a + S1024x1024.size a := by
  show i ∈ ((View.whole main_v16).slice (win2_2.rect t)).set ↔ _
  rw [View.set_slice_whole, Rect.mem_set_unit]
  exact Iff.rfl

/-- The 64 blocks tile the result: entry (i, j) lies in the block of the point whose block indices are
    (i / 1024, j / 1024), and that point writes its block back. -/
theorem covered (i : S8192x8192.Idx) :
    ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_block]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 1024 ≤ (i 1).val ∧ (i 1).val < win2_2.index t (1 : Fin 2) * 1024 + 1024
    omega

/-- What the last launch leaves in its result array, from the contents `V` it is entered at. -/
theorem matmul_final (V : (c : Dev nD) → (b : Ref sig .tc) → Buf (Elt Ideal) ((c : Thread nD τ).loc b)) (c : Dev nD) :
    (dat2 (F := Ideal) V c).arrAt 2 cfg2.N = rowProducts (V c main_v12) (V c main_v15) := by
  exact (dat2 (F := Ideal) V c).arrAt_eq_of_cover 2 (rowProducts (V c main_v12) (V c main_v15))
    (fun t _ => written_back V c t) covered

end Cert.KernelIdeal.Hand

end
-- ==== Proof.Spec.lean ====
/-
  What both programs compute, as one function of the argument arrays over the extended reals.
  Entry (i, j) of the [8192, 8192] result is the inner product, over the 64 columns, of row r(i) of the first table
  with row r'(j) of the second, where r(i) is the row number of (observations[i], actions[i]) and r'(j) that of
  (future_observations[j], future_actions[j]).
-/
import proofs.«429174_j50319836840675_1_alg».proof.Proof.RowIndex
import Idealize.ShloMosaic.Lib.ValueIdx
import Idealize.ShloMosaic.PureOps.Ideal

noncomputable section

namespace Cert.KernelIdeal.Hand

open Idealize.ShloMosaic Idealize.ShloMosaic.ValueIdx
open scoped BigOperators

/-- The row number of a pair of words, as a row of a table of 1000000 rows. -/
def rowOf (o a : BitVec 32) : Fin 1000000 := ⟨(rowWord o a).toNat, rowWord_lt o a⟩

/-- The row a gather reads for result row `i`, from the two word vectors its index vector is computed from. -/
def rowAt (x y : (⟨1, ![8192]⟩ : Shape).Idx → BitVec 32) (i : Fin 8192) : Fin 1000000 := rowOf (x (ValueIdx.ix1 i)) (y (ValueIdx.ix1 i))

/-- One entry of the result. -/
def entry (obs act fobs fact : (⟨1, ![8192]⟩ : Shape).Idx → BitVec 32) (Wf Wb : (⟨2, ![1000000, 64]⟩ : Shape).Idx → EReal)
    (i j : Fin 8192) : EReal :=
  ∑ k : Fin 64, Wf (ix2 (rowAt obs act i) k) * Wb (ix2 (rowAt fobs fact j) k)

/-- The result array. -/
def G (obs act fobs fact : (⟨1, ![8192]⟩ : Shape).Idx → BitVec 32) (Wf Wb : (⟨2, ![1000000, 64]⟩ : Shape).Idx → EReal) :
    (⟨2, ![8192, 8192]⟩ : Shape).Idx → EReal :=
  fun x => entry obs act fobs fact Wf Wb (x 0) (x 1)

end Cert.KernelIdeal.Hand

end
-- ==== Proof.KernelValue.lean ====
/-
  The idealized kernel's result as a function of the argument arrays, over the extended reals: the
  specification's array. The two index vectors at the gathers' entries are, word by word, the row numbers of the
  argument pairs, all below 1000000, so both gathers' side conditions hold; each gather then leaves in its result
  row t the table row whose number is the t-th word; the flattening and the unit-axis views keep the row-major
  order; and the product's entry (i, j) is the sum over the columns of the two gathered rows' products.
-/
import proofs.«429174_j50319836840675_1_alg».proof.Proof.Close
import proofs.«429174_j50319836840675_1_alg».proof.Proof.Between
import proofs.«429174_j50319836840675_1_alg».proof.Proof.GatherValue0
import proofs.«429174_j50319836840675_1_alg».proof.Proof.GatherValue1
import proofs.«429174_j50319836840675_1_alg».proof.Proof.MatmulValue
import proofs.«429174_j50319836840675_1_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open scoped BigOperators

section KernelValue

variable (m : (ℓ : Loc nD τ sig) → Buf (Elt Ideal) ℓ) (ρ : Dev nD → PrngReg)

/-- The two tables of core `c`, at their literal type. -/
abbrev wfA (c : Dev nD) : S1000000x64.Idx → EReal := m ((c.tc : Thread nD τ).loc main_arg4)
abbrev wbA (c : Dev nD) : S1000000x64.Idx → EReal := m ((c.tc : Thread nD τ).loc main_arg5)

/-- The rows the gathers read. -/
abbrev row0 : Fin 8192 → Fin 1000000 := rowAt (obsA m 0) (actA m 0)
abbrev row1 : Fin 8192 → Fin 1000000 := rowAt (fobsA m 0) (factA m 0)

theorem hrow0 (t : Fin (cfg0 (adm0 m)).N) (ht : t.val < 8192) : ((cfg0 (adm0 m)).win 0).index t (0 : Fin 3) = (row0 m ⟨t.val, ht⟩).val := by
  rw [index0_0 (adm0 m) t ht]
  show (tbl0 m 0 (ValueIdx.ix1 ⟨t.val, ht⟩) : BitVec 32).toNat = _
  rw [tbl0_word]; rfl
theorem hrow1 (t : Fin (cfg1 (adm1 m)).N) (ht : t.val < 8192) : ((cfg1 (adm1 m)).win 0).index t (0 : Fin 3) = (row1 m ⟨t.val, ht⟩).val := by
  rw [index1_0 (adm1 m) t ht]
  show (tbl1 m 0 (ValueIdx.ix1 ⟨t.val, ht⟩) : BitVec 32).toNat = _
  rw [tbl1_word]; rfl

/-! ## The product's factors, read back to the argument tables -/

/-- The left factor: the flattened first gather result at (i, k) is the first table at (row(i), k). -/
theorem left_factor (i : Fin 8192) (k : Fin 64) :
    (E13 m (outsB m) 0 main_v12 : S8192x64.Idx → EReal) (ValueIdx.ix2 i k) = wfA m 0 (ValueIdx.ix2 (row0 m i) k) := by
  have e1 : (V13 m (outsB m) 0 (Proc.devRef .tc main_v12) : (⟨S8192x64, .bf16⟩ : BufTy).Contents (Elt Ideal))
      = shapeCast S8192x64 (V10 m (outsB m) 0 (Proc.devRef .tc main_v11) : (⟨S8192x1x64, .bf16⟩ : BufTy).Contents (Elt Ideal)) shapeCasts_S8192x1x64_S8192x64 :=
    (V13_of m (outsB m) 0 main_v12 (by decide)).trans ((V12_of m (outsB m) 0 main_v12 (by decide)).trans (after1_v12 (V10 m (outsB m) 0)))
  have e2 : (V10 m (outsB m) 0 (Proc.devRef .tc main_v11) : (⟨S8192x1x64, .bf16⟩ : BufTy).Contents (Elt Ideal))
      = gathered (row0 m) (E9 m 0 main_v10) :=
    (E10_v11 m (outsB m) 0).trans ((outsB_v11 m 10 0).trans (gather0_final (adm0 m) (E9 m) (row0 m) (hrow0 m) 0))
  show (V13 m (outsB m) 0 (Proc.devRef .tc main_v12) : (⟨S8192x64, .bf16⟩ : BufTy).Contents (Elt Ideal)) (ValueIdx.ix2 i k) = _
  rw [e1]
  refine (flat_row _ _ i k).trans ?_
  rw [e2]
  show (V9 m 0 (Proc.devRef .tc main_v10) : (⟨S1000000x1x64, .f32⟩ : BufTy).Contents (Elt Ideal)) (ValueIdx.ix3 (row0 m i) (0 : Fin 1) k) = _
  rw [v10_at_entry]
  exact view_row _ _ (row0 m i) k

/-- The right factor: the flattened second gather result at (j, k) is the second table at (row'(j), k). -/
theorem right_factor (j : Fin 8192) (k : Fin 64) :
    (E13 m (outsB m) 0 main_v15 : S8192x64.Idx → EReal) (ValueIdx.ix2 j k) = wbA m 0 (ValueIdx.ix2 (row1 m j) k) := by
  have e1 : (V13 m (outsB m) 0 (Proc.devRef .tc main_v15) : (⟨S8192x64, .bf16⟩ : BufTy).Contents (Elt Ideal))
      = shapeCast S8192x64 (V12 m (outsB m) 0 (Proc.devRef .tc main_v14) : (⟨S8192x1x64, .bf16⟩ : BufTy).Contents (Elt Ideal)) shapeCasts_S8192x1x64_S8192x64 :=
    after2_v15 (V12 m (outsB m) 0)
  have e3 : (V11 m (outsA m) 0 (Proc.devRef .tc main_v13) : (⟨S1000000x1x64, .f32⟩ : BufTy).Contents (Elt Ideal))
      = shapeCast S1000000x1x64 (m ((0 : Dev nD).tc.loc main_arg5) : (⟨S1000000x64, .f32⟩ : BufTy).Contents (Elt Ideal)) shapeCasts_S1000000x64_S1000000x1x64 := by
    rw [show V11 m (outsA m) 0 = StableHlo.after hostOps1 (V10 m (outsA m) 0) from rfl, after1_v13,
      show V10 m (outsA m) 0 (Proc.devRef .tc main_arg5) = V9 m 0 (Proc.devRef .tc main_arg5) from V10_of m (outsA m) 0 main_arg5 (by decide), arg5_at_entry]
  have e2 : (V12 m (outsB m) 0 (Proc.devRef .tc main_v14) : (⟨S8192x1x64, .bf16⟩ : BufTy).Contents (Elt Ideal))
      = gatheredB (row1 m) (E11 m (outsA m) 0 main_v13) :=
    (E12_v14 m (outsB m) 0).trans ((outsB_v14 m 12 0).trans (gather1_final (adm1 m) (E11 m (outsA m)) (row1 m) (hrow1 m) 0))
  show (V13 m (outsB m) 0 (Proc.devRef .tc main_v15) : (⟨S8192x64, .bf16⟩ : BufTy).Contents (Elt Ideal)) (ValueIdx.ix2 j k) = _
  rw [e1]
  refine (flat_row _ _ j k).trans ?_
  rw [e2]
  show (V11 m (outsA m) 0 (Proc.devRef .tc main_v13) : (⟨S1000000x1x64, .f32⟩ : BufTy).Contents (Elt Ideal)) (ValueIdx.ix3 (row1 m j) (0 : Fin 1) k) = _
  rw [e3]
  exact view_row _ _ (row1 m j) k

/-- Rows of products whose factors are, entry by entry, rows of two tables. -/
theorem rowProducts_of_rows (A B : S8192x64.Idx → EReal) (A' B' : S1000000x64.Idx → EReal) (r r' : Fin 8192 → Fin 1000000)
    (hA : ∀ (i : Fin 8192) (k : Fin 64), A (ValueIdx.ix2 i k) = A' (ValueIdx.ix2 (r i) k))
    (hB : ∀ (j : Fin 8192) (k : Fin 64), B (ValueIdx.ix2 j k) = B' (ValueIdx.ix2 (r' j) k)) :
    rowProducts A B = fun x : S8192x8192.Idx => ∑ k : Fin 64, A' (ValueIdx.ix2 (r (x 0)) k) * B' (ValueIdx.ix2 (r' (x 1)) k) := by
  funext x
  show ∑ k : Fin 64, A (ValueIdx.ix2 (x 0) k) * B (ValueIdx.ix2 (x 1) k) = _
  exact Finset.sum_congr rfl fun k _ => congrArg₂ (· * ·) (hA (x 0) k) (hB (x 1) k)

/-- The product's result array is the specification's. -/
theorem value_eq (c : Dev nD) :
    outsC m 14 main_v16 c = G (obsA m c) (actA m c) (fobsA m c) (factA m c) (wfA m c) (wbA m c) := by
  obtain rfl : c = 0 := Subsingleton.elim _ _
  rw [outsC_v16]
  unfold o14
  rw [matmul_final]
  exact rowProducts_of_rows _ _ (wfA m 0) (wbA m 0) (row0 m) (row1 m) (left_factor m) (right_factor m)

/-- THE KERNEL'S RUN, READ: every weakly fair execution terminates with the result array at the specification's
    function of the argument arrays, and the arguments unchanged. -/
theorem kernel_run : θ_run defs (onTc (τ := τ) (main (F := Ideal))) ⟨m, fun _ => 0, ρ⟩ (fun r => ∀ c : Dev nD,
      r.2.mem ((c.tc : Thread nD τ).loc main_v16) = G (obsA m c) (actA m c) (fobsA m c) (factA m c) (wfA m c) (wbA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value_eq m c), (h c).2⟩) (run_closed m ρ)

end KernelValue

end Cert.KernelIdeal.Hand

end
-- ==== Proof.RefValue.lean ====
/-
  The reference program's result as a function of the argument arrays, over the extended reals: it is the
  specification's array. Each of its two gathers reads, for result row i, the table row whose number is the i-th word
  of its index vector: the word is never negative, so the wrap-around select keeps it, and it is below the number of
  rows, so the clamp of the gather keeps it too.
-/
import proofs.«429174_j50319836840675_1_alg».proof.Proof.Gen.ReferenceIdeal.Run
import proofs.«429174_j50319836840675_1_alg».proof.Proof.Gen.ReferenceIdeal.Read
import proofs.«429174_j50319836840675_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem
open scoped BigOperators

/-! ## The row gather read at an index -/

/-- The row gather of a [1000000, 64] table at an [8192, 1] column of start indices, read at (i, k): the table at
    column k of the row whose number is the i-th start index, read as a signed integer and clamped into the table. -/
theorem gather_row_apply {α : Type} {w : Nat} (W : S1000000x64.Idx → α) (c : IVec S8192x1 w) (i : Fin 8192) (k : Fin 64) :
    Host.gather gather_S1000000x64_S8192x1_S8192x64_1_0_n_n_0_1_164 W c (ValueIdx.ix2 i k)
      = W (ValueIdx.ix2 (⟨min (c (ValueIdx.ix2 i (0 : Fin 1))).toInt.toNat 999999, by omega⟩ : Fin 1000000) k) := by
  unfold Host.gather
  congr 1
  funext a
  refine Fin.ext ?_
  match a with
  | ⟨0, _⟩ =>
    show gather_S1000000x64_S8192x1_S8192x64_1_0_n_n_0_1_164.start (ValueIdx.ix2 i k) c 0
        + gather_S1000000x64_S8192x1_S8192x64_1_0_n_n_0_1_164.batchCoord (ValueIdx.ix2 i k) 0
        + gather_S1000000x64_S8192x1_S8192x64_1_0_n_n_0_1_164.offCoord (ValueIdx.ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x64_S8192x1_S8192x64_1_0_n_n_0_1_164.startIndexMap from
      List.mem_singleton.mpr rfl)]
    have hsi : gather_S1000000x64_S8192x1_S8192x64_1_0_n_n_0_1_164.siIdx (ValueIdx.ix2 i k)
        ⟨List.idxOf (0 : Fin 2) gather_S1000000x64_S8192x1_S8192x64_1_0_n_n_0_1_164.startIndexMap,
          List.idxOf_lt_length_iff.2 (List.mem_singleton.mpr rfl)⟩ = ValueIdx.ix2 i (0 : Fin 1) := by
      funext b; refine Fin.ext ?_
      match b with
      | ⟨0, _⟩ => rfl
      | ⟨1, _⟩ => rfl
    rw [hsi]
    rfl
  | ⟨1, _⟩ =>
    show gather_S1000000x64_S8192x1_S8192x64_1_0_n_n_0_1_164.start (ValueIdx.ix2 i k) c 1
        + gather_S1000000x64_S8192x1_S8192x64_1_0_n_n_0_1_164.batchCoord (ValueIdx.ix2 i k) 1
        + gather_S1000000x64_S8192x1_S8192x64_1_0_n_n_0_1_164.offCoord (ValueIdx.ix2 i k) 1 = k.val
    rw [GatherDims.batchCoord_eq_zero _ _ _ List.not_mem_nil]
    unfold GatherDims.start
    rw [dif_neg (show (1 : Fin 2) ∉ gather_S1000000x64_S8192x1_S8192x64_1_0_n_n_0_1_164.startIndexMap by decide)]
    simp only [Nat.add_zero, Nat.zero_add]
    unfold GatherDims.offCoord
    rw [dif_pos (show (1 : Fin 2) ∈ gather_S1000000x64_S8192x1_S8192x64_1_0_n_n_0_1_164.sKept by decide)]
    rfl

/-- The same, once the clamped start index is known to be the row number r. -/
theorem gather_row_of_start {α : Type} {w : Nat} (W : S1000000x64.Idx → α) (c : IVec S8192x1 w) (i : Fin 8192) (k : Fin 64)
    (r : Fin 1000000) (h : min (c (ValueIdx.ix2 i (0 : Fin 1))).toInt.toNat 999999 = r.val) :
    Host.gather gather_S1000000x64_S8192x1_S8192x64_1_0_n_n_0_1_164 W c (ValueIdx.ix2 i k) = W (ValueIdx.ix2 r k) := by
  rw [gather_row_apply]
  have e : (⟨min (c (ValueIdx.ix2 i (0 : Fin 1))).toInt.toNat 999999, by omega⟩ : Fin 1000000) = r := Fin.ext h
  rw [e]

/-! ## The index words -/

open Cert.KernelIdeal.Hand in
/-- A row number is not negative as a signed word: the comparison with zero answers the bit 0. -/
theorem rowWord_cmp_zero (o a : BitVec 32) : IntOp.cmpi .slt (rowWord o a) 0#32 = 0#1 := by
  have h := rowWord_lt o a
  have hs : (rowWord o a).slt 0#32 = false := by
    simp only [BitVec.slt, BitVec.toInt_eq_toNat_cond, BitVec.toNat_ofNat, decide_eq_false_iff_not]
    split_ifs <;> omega
  show BitVec.ofBool ((rowWord o a).slt 0#32) = 0#1
  rw [hs]; rfl

open Cert.KernelIdeal.Hand in
/-- Read as a signed integer and clamped into the table, a row number is itself. -/
theorem rowWord_clamp (o a : BitVec 32) : min (rowWord o a).toInt.toNat 999999 = (rowWord o a).toNat := by
  have h := rowWord_lt o a
  rw [BitVec.toInt_eq_toNat_cond]
  split_ifs <;> omega

open Cert.KernelIdeal.Hand in
/-- The first index vector at row i, before the wrap-around select: the row number of (observations[i], actions[i]). -/
theorem fwd_word (x0 x1 : (⟨S8192, .i32⟩ : BufTy).Contents (Elt Ideal)) (i : Fin 8192) :
    val_main_v4 (F := Ideal) x0 x1 (ValueIdx.ix1 i) = rowWord (x0 (ValueIdx.ix1 i)) (x1 (ValueIdx.ix1 i)) := by
  rw [val_main_v4_apply, val_main_v3_apply, val_main_v0_apply, val_main_v1_apply, val_main_v2_apply,
    val_main_call0_v4_apply, val_main_call0_v2_apply, val_main_call0_v1_apply, val_main_call1_v4_apply,
    val_main_call1_v2_apply, val_main_call1_v1_apply]
  rfl

open Cert.KernelIdeal.Hand in
/-- The second index vector at row j, before the wrap-around select: the row number of
    (future_observations[j], future_actions[j]). -/
theorem bwd_word (x2 x3 : (⟨S8192, .i32⟩ : BufTy).Contents (Elt Ideal)) (j : Fin 8192) :
    val_main_v9 (F := Ideal) x2 x3 (ValueIdx.ix1 j) = rowWord (x2 (ValueIdx.ix1 j)) (x3 (ValueIdx.ix1 j)) := by
  rw [val_main_v9_apply, val_main_v8_apply, val_main_v5_apply, val_main_v6_apply, val_main_v7_apply,
    val_main_call2_v4_apply, val_main_call2_v2_apply, val_main_call2_v1_apply, val_main_call3_v4_apply,
    val_main_call3_v2_apply, val_main_call3_v1_apply]
  rfl

/-- Row i of the [8192, 1] column of start indices reads entry i of the vector it was broadcast from. -/
theorem col_idx_fwd (i : Fin 8192) : idx_main_v15 (ValueIdx.ix2 i (0 : Fin 1)) = ValueIdx.ix1 i := by
  funext a; match a with | ⟨0, _⟩ => rfl

theorem col_idx_bwd (j : Fin 8192) : idx_main_v22 (ValueIdx.ix2 j (0 : Fin 1)) = ValueIdx.ix1 j := by
  funext a; match a with | ⟨0, _⟩ => rfl

open Cert.KernelIdeal.Hand in
/-- The first gather's start index for row i is the row number: the wrap-around select keeps a word that is not
    negative. -/
theorem fwd_start (x0 x1 : (⟨S8192, .i32⟩ : BufTy).Contents (Elt Ideal)) (i : Fin 8192) :
    val_main_v15 (F := Ideal) x0 x1 (ValueIdx.ix2 i (0 : Fin 1)) = rowWord (x0 (ValueIdx.ix1 i)) (x1 (ValueIdx.ix1 i)) := by
  rw [val_main_v15_apply, col_idx_fwd, val_main_v14_apply, val_main_v11_apply, val_main_v10_apply, fwd_word]
  show Scalar.select (IntOp.cmpi .slt (rowWord (x0 (ValueIdx.ix1 i)) (x1 (ValueIdx.ix1 i))) 0#32) _ _ = _
  rw [rowWord_cmp_zero, ValueIdx.select_zero]

open Cert.KernelIdeal.Hand in
theorem bwd_start (x2 x3 : (⟨S8192, .i32⟩ : BufTy).Contents (Elt Ideal)) (j : Fin 8192) :
    val_main_v22 (F := Ideal) x2 x3 (ValueIdx.ix2 j (0 : Fin 1)) = rowWord (x2 (ValueIdx.ix1 j)) (x3 (ValueIdx.ix1 j)) := by
  rw [val_main_v22_apply, col_idx_bwd, val_main_v21_apply, val_main_v18_apply, val_main_v17_apply, bwd_word]
  show Scalar.select (IntOp.cmpi .slt (rowWord (x2 (ValueIdx.ix1 j)) (x3 (ValueIdx.ix1 j))) 0#32) _ _ = _
  rw [rowWord_cmp_zero, ValueIdx.select_zero]

/-! ## The two gathers read at an index -/

open Cert.KernelIdeal.Hand in
/-- The first gather at (i, k) is the first table at column k of row r(i). -/
theorem fwd_row (x0 x1 : (⟨S8192, .i32⟩ : BufTy).Contents (Elt Ideal)) (x4 : (⟨S1000000x64, .f32⟩ : BufTy).Contents (Elt Ideal))
    (i : Fin 8192) (k : Fin 64) :
    val_main_v16 (F := Ideal) x0 x1 x4 (ValueIdx.ix2 i k) = x4 (ValueIdx.ix2 (rowAt x0 x1 i) k) := by
  unfold val_main_v16
  refine gather_row_of_start x4 _ i k (rowAt x0 x1 i) ?_
  rw [fwd_start]
  exact rowWord_clamp _ _

open Cert.KernelIdeal.Hand in
/-- The second gather at (j, k) is the second table at column k of row r'(j). -/
theorem bwd_row (x2 x3 : (⟨S8192, .i32⟩ : BufTy).Contents (Elt Ideal)) (x5 : (⟨S1000000x64, .f32⟩ : BufTy).Contents (Elt Ideal))
    (j : Fin 8192) (k : Fin 64) :
    val_main_v23 (F := Ideal) x2 x3 x5 (ValueIdx.ix2 j k) = x5 (ValueIdx.ix2 (rowAt x2 x3 j) k) := by
  unfold val_main_v23
  refine gather_row_of_start x5 _ j k (rowAt x2 x3 j) ?_
  rw [bwd_start]
  exact rowWord_clamp _ _

/-! ## The result -/

/-- The reference's last stage, of the six argument arrays, is the specification's array. -/
theorem ref_result (x0 x1 x2 x3 : (⟨S8192, .i32⟩ : BufTy).Contents (Elt Ideal)) (x4 x5 : (⟨S1000000x64, .f32⟩ : BufTy).Contents (Elt Ideal)) :
    Cert.ReferenceIdeal.Read.val_main_v24 (F := Ideal) x0 x1 x2 x3 x4 x5 = Cert.KernelIdeal.Hand.G x0 x1 x2 x3 x4 x5 := by
  funext x
  obtain ⟨i, j, rfl⟩ : ∃ (i j : Fin 8192), x = ValueIdx.ix2 i j := ⟨x 0, x 1, ValueIdx.eq_ix2 x⟩
  rw [val_main_v24_apply]
  show _ = ∑ k : Fin 64, x4 (ValueIdx.ix2 (Cert.KernelIdeal.Hand.rowAt x0 x1 i) k) * x5 (ValueIdx.ix2 (Cert.KernelIdeal.Hand.rowAt x2 x3 j) k)
  refine Finset.sum_congr rfl fun k _ => ?_
  have hl : lidx_main_v24 (ValueIdx.ix2 i j) k = ValueIdx.ix2 i k := by
    funext a; match a with | ⟨0, _⟩ => rfl | ⟨1, _⟩ => rfl
  have hr : ridx_main_v24 (ValueIdx.ix2 i j) k = ValueIdx.ix2 j k := by
    funext a; match a with | ⟨0, _⟩ => rfl | ⟨1, _⟩ => rfl
  rw [hl, hr, fwd_row, bwd_row]

end Cert.ReferenceIdeal.RefValue

end
-- ==== Proof.lean ====
/-
  The proof of `Cert.Claim`: the kernel (two row gathers through prefetched index vectors, then a blocked
  matrix product) against the reference (two host gathers, then one contraction), over the extended reals.

  Both programs compute, for every pair (i, j) of 8192 × 8192, the inner product over the 64 columns of row r(i)
  of the first table with row r'(j) of the second, where r(i) is the clamped observation times ten plus the clamped
  action, always a row number in [0, 999999]. Neither sum is regrouped and the factors stand in the same order,
  so no law of the extended reals beyond congruence is needed, and the precondition is never opened.

  The frames: the kernel's program is fourteen items (host stretches and three launches), run item by item with
  every unscoped buffer held at a named valuation between items; the two gathers' index vectors meet their
  launches' side condition because every word of them is a row number inside the table. This is proved once for
  any float instance and read at the word level and at the ideal one. The reference has no launch: its frame is
  its run with the result dropped.
-/
import proofs.«429174_j50319836840675_1_alg».proof.Defs
import proofs.«429174_j50319836840675_1_alg».proof.Proof.Gen.Kernel
import proofs.«429174_j50319836840675_1_alg».proof.Proof.Gen.KernelIdeal
import proofs.«429174_j50319836840675_1_alg».proof.Proof.Gen.ReferenceIdeal
import proofs.«429174_j50319836840675_1_alg».proof.Proof.Gen.Pre_finite_inputs
import proofs.«429174_j50319836840675_1_alg».proof.Proof.Gen.ReferenceIdeal.Run
import proofs.«429174_j50319836840675_1_alg».proof.Proof.Gen.ReferenceIdeal.Read
import proofs.«429174_j50319836840675_1_alg».proof.Proof.CloseB
import proofs.«429174_j50319836840675_1_alg».proof.Proof.KernelValue
import proofs.«429174_j50319836840675_1_alg».proof.Proof.RefValue
import Idealize.ShloMosaic.Adequacy
import Idealize.ShloMosaic.Init

noncomputable section

namespace Cert.Proof

open Idealize.ShloMosaic Idealize.SL.Sem

/-- The word-level kernel runs to the end, faults nowhere, and leaves its arguments as launched. -/
theorem frame_kernel : Cert.frame_Kernel := fun m ρ _ => Cert.Kernel.Hand.frame_closed m ρ

/-- So does the idealized kernel. -/
theorem frame_kernelIdeal : Cert.frame_KernelIdeal := fun m ρ _ => Cert.KernelIdeal.Hand.frame_closed m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct to prove. -/
theorem preserves : Cert.preserves_Kernel_KernelIdeal := trivial

/-- From memories agreeing on the arguments both idealized programs end with the specification's array: the kernel
    by its run read back through the launches, the reference by its run read stage by stage. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq (F := Ideal) _ _ _ _ _ _).trans ?_
  rw [Cert.ReferenceIdeal.RefValue.ref_result]
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
